-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S1600000 : Shape := ⟨1, ![1600000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x512 .f32) (main_arg1 : IVec S1600000 32) (main_arg2 : IVec S1600000 32) (main_arg3 : FVec F S512x128 .f32) (main_arg4 : FVec F S128 .f32) (main_arg5 : FVec F S128x64 .f32) (main_arg6 : FVec F S64 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x128 .f32 := Host.absf main_arg3
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_v13 main_v16
-- ==== Kernel.lean ====
abbrev S100000x512 : Shape := ⟨2, ![100000, 512]⟩
abbrev S1600000 : Shape := ⟨1, ![1600000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S2000x512 : Shape := ⟨2, ![2000, 512]⟩
abbrev S2000x128 : Shape := ⟨2, ![2000, 128]⟩
abbrev S1700000x128 : Shape := ⟨2, ![1700000, 128]⟩
abbrev S1x128 : Shape := ⟨2, ![1, 128]⟩
abbrev S4000x128 : Shape := ⟨2, ![4000, 128]⟩
abbrev S100000x64 : Shape := ⟨2, ![100000, 64]⟩
abbrev S2000x64 : Shape := ⟨2, ![2000, 64]⟩
abbrev S1700000x64 : Shape := ⟨2, ![1700000, 64]⟩
abbrev S1x64 : Shape := ⟨2, ![1, 64]⟩
abbrev S4000x64 : Shape := ⟨2, ![4000, 64]⟩
abbrev S4000 : Shape := ⟨1, ![4000]⟩
abbrev S4000x1 : Shape := ⟨2, ![4000, 1]⟩

abbrev nBuf : Space → Nat
  | .hbm => 74
  | .vmem => 20
  | .smem => 0
  | _ => 0

abbrev bufTy : (tb : Table) → Fin (tcTables nBuf tb) → BufTy
  | .hbm, ⟨0, _⟩ => ⟨S100000x512, .f32⟩
  | .hbm, ⟨1, _⟩ => ⟨S1600000, .i32⟩
  | .hbm, ⟨2, _⟩ => ⟨S1600000, .i32⟩
  | .hbm, ⟨3, _⟩ => ⟨S512x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S100000, .i32⟩
  | .hbm, ⟨8, _⟩ => ⟨S1700000, .i32⟩
  | .hbm, ⟨9, _⟩ => ⟨S1700000, .i32⟩
  | .hbm, ⟨10, _⟩ => ⟨S_, .f32⟩
  | .hbm, ⟨11, _⟩ => ⟨S1700000, .f32⟩
  | .hbm, ⟨12, _⟩ => ⟨S_, .f32⟩
  | .hbm, ⟨13, _⟩ => ⟨S100000, .f32⟩
  | .hbm, ⟨14, _⟩ => ⟨S1700000x1, .i32⟩
  | .hbm, ⟨15, _⟩ => ⟨S100000, .f32⟩
  | .hbm, ⟨16, _⟩ => ⟨S100000, .f32⟩
  | .hbm, ⟨17, _⟩ => ⟨S_, .i32⟩
  | .hbm, ⟨18, _⟩ => ⟨S1700000, .i32⟩
  | .hbm, ⟨19, _⟩ => ⟨S1700000, .i1⟩
  | .hbm, ⟨20, _⟩ => ⟨S_, .i32⟩
  | .hbm, ⟨21, _⟩ => ⟨S1700000, .i32⟩
  | .hbm, ⟨22, _⟩ => ⟨S1700000, .i32⟩
  | .hbm, ⟨23, _⟩ => ⟨S1700000, .i32⟩
  | .hbm, ⟨24, _⟩ => ⟨S1700000x1, .i32⟩
  | .hbm, ⟨25, _⟩ => ⟨S1700000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S1700000, .f32⟩
  | .hbm, ⟨36, _⟩ => ⟨S100000x128, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000x128, .f32⟩
  | .hbm, ⟨46, _⟩ => ⟨S1700000x1, .f32⟩
  | .hbm, ⟨47, _⟩ => ⟨S1700000x128, .f32⟩
  | .hbm, ⟨48, _⟩ => ⟨S1700000x128, .f32⟩
  | .hbm, ⟨49, _⟩ => ⟨S_, .f32⟩
  | .hbm, ⟨50, _⟩ => ⟨S100000x128, .f32⟩
  | .hbm, ⟨51, _⟩ => ⟨S1700000x1, .i32⟩
  | .hbm, ⟨52, _⟩ => ⟨S100000x128, .f32⟩
  | .hbm, ⟨53, _⟩ => ⟨S1x128, .f32⟩
  | .hbm, ⟨54, _⟩ => ⟨S100000x128, .f32⟩
  | .hbm, ⟨55, _⟩ => ⟨S100000x64, .f32⟩
  | .hbm, ⟨56, _⟩ => ⟨S_, .i32⟩
  | .hbm, ⟨57, _⟩ => ⟨S1700000, .i32⟩
  | .hbm, ⟨58, _⟩ => ⟨S1700000, .i1⟩
  | .hbm, ⟨59, _⟩ => ⟨S_, .i32⟩
  | .hbm, ⟨60, _⟩ => ⟨S1700000, .i32⟩
  | .hbm, ⟨61, _⟩ => ⟨S1700000, .i32⟩
  | .hbm, ⟨62, _⟩ => ⟨S1700000, .i32⟩
  | .hbm, ⟨63, _⟩ => ⟨S1700000x1, .i32⟩
  | .hbm, ⟨64, _⟩ => ⟨S1700000x64, .f32⟩
  | .hbm, ⟨65, _⟩ => ⟨S1700000x1, .f32⟩
  | .hbm, ⟨66, _⟩ => ⟨S1700000x64, .f32⟩
  | .hbm, ⟨67, _⟩ => ⟨S1700000x64, .f32⟩
  | .hbm, ⟨68, _⟩ => ⟨S_, .f32⟩
  | .hbm, ⟨69, _⟩ => ⟨S100000x64, .f32⟩
  | .hbm, ⟨70, _⟩ => ⟨S1700000x1, .i32⟩
  | .hbm, ⟨71, _⟩ => ⟨S100000x64, .f32⟩
  | .hbm, ⟨72, _⟩ => ⟨S1x64, .f32⟩
  | .hbm, ⟨73, _⟩ => ⟨S100000x64, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x128, .f32⟩
  | .local _ .vmem, ⟨4, _⟩ => ⟨S2000x128, .f32⟩
  | .local _ .vmem, ⟨5, _⟩ => ⟨S4000x128, .f32⟩
  | .local _ .vmem, ⟨6, _⟩ => ⟨S4000x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S2000x128, .f32⟩
  | .local _ .vmem, ⟨11, _⟩ => ⟨S2000x128, .f32⟩
  | .local _ .vmem, ⟨12, _⟩ => ⟨S128x64, .f32⟩
  | .local _ .vmem, ⟨13, _⟩ => ⟨S2000x64, .f32⟩
  | .local _ .vmem, ⟨14, _⟩ => ⟨S2000x64, .f32⟩
  | .local _ .vmem, ⟨15, _⟩ => ⟨S4000x64, .f32⟩
  | .local _ .vmem, ⟨16, _⟩ => ⟨S4000x64, .f32⟩
  | .local _ .vmem, ⟨17, _⟩ => ⟨S1x64, .f32⟩
  | .local _ .vmem, ⟨18, _⟩ => ⟨S4000x64, .f32⟩
  | .local _ .vmem, ⟨19, _⟩ => ⟨S4000x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_7 : Ref sig .tc := ⟨.hbm, 56, rfl⟩
abbrev main_v40 : Ref sig .tc := ⟨.hbm, 57, rfl⟩
abbrev main_v41 : Ref sig .tc := ⟨.hbm, 58, rfl⟩
abbrev main_c_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_9 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  reduces_S4000x64_S4000 : S4000x64.Reduces [1] S4000
  shapeCasts_S4000_S4000x1 : S4000.ShapeCasts S4000x1
  broadcasts_S4000x1_S4000x64 : S4000x1.Broadcasts S4000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x512_S512x128_S2000x128_1_0_0_1_n_n_wf : DotDims.WF S2000x512 S512x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x64_S2000x64_1_0_0_1_n_n_wf : DotDims.WF S2000x128 S128x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S100000x64.size a
  hwx3_0 : ∀ i : grid3.Coords, EltTy.bits .f32 = 32 ∨ (Rect.block (s := S100000x64) S4000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x64.size a ≤ S100000x64.size a
  hwx3_2 : ∀ i : grid3.Coords, EltTy.bits .f32 = 32 ∨ (Rect.block (s := S100000x64) S4000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v36) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38) S4000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v38) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v39) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v52) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v54) S4000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x512 : Shape := ⟨2, ![100000, 512]⟩
abbrev S1600000 : Shape := ⟨1, ![1600000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S100000x128 : Shape := ⟨2, ![100000, 128]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩

abbrev nBuf : Space → Nat
  | .hbm => 123
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S1600000, .i32⟩
  | .hbm, ⟨2, _⟩ => ⟨S1600000, .i32⟩
  | .hbm, ⟨3, _⟩ => ⟨S512x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S100000x128, .f32⟩
  | .hbm, ⟨8, _⟩ => ⟨S100000, .i32⟩
  | .hbm, ⟨9, _⟩ => ⟨S1700000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S100000, .f32⟩
  | .hbm, ⟨18, _⟩ => ⟨S_, .i32⟩
  | .hbm, ⟨19, _⟩ => ⟨S1700000, .i32⟩
  | .hbm, ⟨20, _⟩ => ⟨S1700000, .i1⟩
  | .hbm, ⟨21, _⟩ => ⟨S_, .i32⟩
  | .hbm, ⟨22, _⟩ => ⟨S1700000, .i32⟩
  | .hbm, ⟨23, _⟩ => ⟨S1700000, .i32⟩
  | .hbm, ⟨24, _⟩ => ⟨S1700000, .i32⟩
  | .hbm, ⟨25, _⟩ => ⟨S1700000x1, .i32⟩
  | .hbm, ⟨26, _⟩ => ⟨S1700000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000x128, .f32⟩
  | .hbm, ⟨46, _⟩ => ⟨S1700000x1, .f32⟩
  | .hbm, ⟨47, _⟩ => ⟨S1700000x128, .f32⟩
  | .hbm, ⟨48, _⟩ => ⟨S1700000x128, .f32⟩
  | .hbm, ⟨49, _⟩ => ⟨S_, .f32⟩
  | .hbm, ⟨50, _⟩ => ⟨S100000x128, .f32⟩
  | .hbm, ⟨51, _⟩ => ⟨S1700000x1, .i32⟩
  | .hbm, ⟨52, _⟩ => ⟨S100000x128, .f32⟩
  | .hbm, ⟨53, _⟩ => ⟨S1x128, .f32⟩
  | .hbm, ⟨54, _⟩ => ⟨S100000x128, .f32⟩
  | .hbm, ⟨55, _⟩ => ⟨S100000x128, .f32⟩
  | .hbm, ⟨56, _⟩ => ⟨S_, .f32⟩
  | .hbm, ⟨57, _⟩ => ⟨S100000x128, .f32⟩
  | .hbm, ⟨58, _⟩ => ⟨S100000x128, .f32⟩
  | .hbm, ⟨59, _⟩ => ⟨S100000x64, .f32⟩
  | .hbm, ⟨60, _⟩ => ⟨S100000, .i32⟩
  | .hbm, ⟨61, _⟩ => ⟨S1700000, .i32⟩
  | .hbm, ⟨62, _⟩ => ⟨S1700000, .i32⟩
  | .hbm, ⟨63, _⟩ => ⟨S_, .f32⟩
  | .hbm, ⟨64, _⟩ => ⟨S1700000, .f32⟩
  | .hbm, ⟨65, _⟩ => ⟨S_, .f32⟩
  | .hbm, ⟨66, _⟩ => ⟨S100000, .f32⟩
  | .hbm, ⟨67, _⟩ => ⟨S1700000x1, .i32⟩
  | .hbm, ⟨68, _⟩ => ⟨S100000, .f32⟩
  | .hbm, ⟨69, _⟩ => ⟨S100000, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000, .f32⟩
  | .hbm, ⟨79, _⟩ => ⟨S_, .i32⟩
  | .hbm, ⟨80, _⟩ => ⟨S1700000, .i32⟩
  | .hbm, ⟨81, _⟩ => ⟨S1700000, .i1⟩
  | .hbm, ⟨82, _⟩ => ⟨S_, .i32⟩
  | .hbm, ⟨83, _⟩ => ⟨S1700000, .i32⟩
  | .hbm, ⟨84, _⟩ => ⟨S1700000, .i32⟩
  | .hbm, ⟨85, _⟩ => ⟨S1700000, .i32⟩
  | .hbm, ⟨86, _⟩ => ⟨S1700000x1, .i32⟩
  | .hbm, ⟨87, _⟩ => ⟨S1700000, .f32⟩
  | .hbm, ⟨88, _⟩ => ⟨S1700000, .f32⟩
  | .hbm, ⟨89, _⟩ => ⟨S_, .i32⟩
  | .hbm, ⟨90, _⟩ => ⟨S1700000, .i32⟩
  | .hbm, ⟨91, _⟩ => ⟨S1700000, .i1⟩
  | .hbm, ⟨92, _⟩ => ⟨S_, .i32⟩
  | .hbm, ⟨93, _⟩ => ⟨S1700000, .i32⟩
  | .hbm, ⟨94, _⟩ => ⟨S1700000, .i32⟩
  | .hbm, ⟨95, _⟩ => ⟨S1700000, .i32⟩
  | .hbm, ⟨96, _⟩ => ⟨S1700000x1, .i32⟩
  | .hbm, ⟨97, _⟩ => ⟨S1700000x64, .f32⟩
  | .hbm, ⟨98, _⟩ => ⟨S1700000x1, .f32⟩
  | .hbm, ⟨99, _⟩ => ⟨S1700000x64, .f32⟩
  | .hbm, ⟨100, _⟩ => ⟨S1700000x64, .f32⟩
  | .hbm, ⟨101, _⟩ => ⟨S_, .f32⟩
  | .hbm, ⟨102, _⟩ => ⟨S100000x64, .f32⟩
  | .hbm, ⟨103, _⟩ => ⟨S1700000x1, .i32⟩
  | .hbm, ⟨104, _⟩ => ⟨S100000x64, .f32⟩
  | .hbm, ⟨105, _⟩ => ⟨S1x64, .f32⟩
  | .hbm, ⟨106, _⟩ => ⟨S100000x64, .f32⟩
  | .hbm, ⟨107, _⟩ => ⟨S100000x64, .f32⟩
  | .hbm, ⟨108, _⟩ => ⟨S_, .f32⟩
  | .hbm, ⟨109, _⟩ => ⟨S100000, .f32⟩
  | .hbm, ⟨110, _⟩ => ⟨S_, .f32⟩
  | .hbm, ⟨111, _⟩ => ⟨S100000, .f32⟩
  | .hbm, ⟨112, _⟩ => ⟨S100000, .f32⟩
  | .hbm, ⟨113, _⟩ => ⟨S100000x1, .f32⟩
  | .hbm, ⟨114, _⟩ => ⟨S100000x64, .f32⟩
  | .hbm, ⟨115, _⟩ => ⟨S100000x64, .f32⟩
  | .hbm, ⟨116, _⟩ => ⟨S100000x64, .f32⟩
  | .hbm, ⟨117, _⟩ => ⟨S_, .f32⟩
  | .hbm, ⟨118, _⟩ => ⟨S100000, .f32⟩
  | .hbm, ⟨119, _⟩ => ⟨S100000x1, .f32⟩
  | .hbm, ⟨120, _⟩ => ⟨S100000x1, .f32⟩
  | .hbm, ⟨121, _⟩ => ⟨S100000x64, .f32⟩
  | .hbm, ⟨122, _⟩ => ⟨S100000x64, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_call0_cst : Ref sig .tc := ⟨.hbm, 56, rfl⟩
abbrev main_call0_v0 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_9 : Ref sig .tc := ⟨.hbm, 70, rfl⟩
abbrev main_v50 : Ref sig .tc := ⟨.hbm, 71, rfl⟩
abbrev main_v51 : Ref sig .tc := ⟨.hbm, 72, rfl⟩
abbrev main_c_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_11 : Ref sig .tc := ⟨.hbm, 79, rfl⟩
abbrev main_v57 : Ref sig .tc := ⟨.hbm, 80, rfl⟩
abbrev main_v58 : Ref sig .tc := ⟨.hbm, 81, rfl⟩
abbrev main_c_12 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_13 : Ref sig .tc := ⟨.hbm, 89, rfl⟩
abbrev main_v65 : Ref sig .tc := ⟨.hbm, 90, rfl⟩
abbrev main_v66 : Ref sig .tc := ⟨.hbm, 91, rfl⟩
abbrev main_c_14 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_15 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_call1_cst : Ref sig .tc := ⟨.hbm, 108, rfl⟩
abbrev main_call1_v0 : Ref sig .tc := ⟨.hbm, 109, rfl⟩
abbrev main_call1_cst_0 : Ref sig .tc := ⟨.hbm, 110, rfl⟩
abbrev main_call1_v1 : Ref sig .tc := ⟨.hbm, 111, rfl⟩
abbrev main_call1_v2 : Ref sig .tc := ⟨.hbm, 112, rfl⟩
abbrev main_call1_v3 : Ref sig .tc := ⟨.hbm, 113, rfl⟩
abbrev main_call1_v4 : Ref sig .tc := ⟨.hbm, 114, rfl⟩
abbrev main_call1_v5 : Ref sig .tc := ⟨.hbm, 115, rfl⟩
abbrev main_call1_v6 : Ref sig .tc := ⟨.hbm, 116, rfl⟩
abbrev main_call1_cst_1 : Ref sig .tc := ⟨.hbm, 117, rfl⟩
abbrev main_call1_v7 : Ref sig .tc := ⟨.hbm, 118, rfl⟩
abbrev main_call1_v8 : Ref sig .tc := ⟨.hbm, 119, rfl⟩
abbrev main_call1_v9 : Ref sig .tc := ⟨.hbm, 120, rfl⟩
abbrev main_call1_v10 : Ref sig .tc := ⟨.hbm, 121, rfl⟩
abbrev main_v81 : Ref sig .tc := ⟨.hbm, 122, rfl⟩

abbrev nD : Nat := 1
abbrev τ : Topo := Topo.v7x

variable {F : FTy → Type} [FloatOps F]

class Facts₀ : Prop where
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  dot_S100000x512_S512x128_S100000x128_1_0_0_1_n_n_wf : DotDims.WF S100000x512 S512x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.LibRowOps.lean ====
/-
  Row-wise operations read at an index, at the ideal instance, for a matrix of any number of rows: a reduction along
  the columns (a sum, a maximum) read at a row is the sum, or the fold of `max`, over that row's entries; a vector of
  row values made a column and that column broadcast along the rows read at (row, column) are the row's value; and a
  matrix product into a zero accumulator read at (row, column) is the sum over the contracted axis of the row's entries
  against the column's. None of them depends on the other rows, which is why a kernel may cut the rows into blocks.
-/
import Idealize.ShloMosaic.PureOps.Ideal.Laws
import Idealize.ShloMosaic.Lib.ValueLayout

noncomputable section

open scoped BigOperators

namespace Cert.RowOps

open Idealize.ShloMosaic Idealize.ShloMosaic.ValueIdx

variable {R N K : ℕ} {φ φ₁ φ₂ : FTy} {α : Type}

/-- Over row `r` of an `R × N` matrix reduced along its columns, the source index with column `k` put back is
    `(r, k)`. -/
theorem lift_row (h : (⟨2, ![R, N]⟩ : Shape).Reduces [(1 : Fin 2)] ⟨1, ![R]⟩) (r : Fin R) (k : Fin N) :
    h.lift (ix1 r) k = ix2 r k := by
  funext c
  apply Fin.ext
  match c with
  | ⟨0, _⟩ => rfl
  | ⟨1, _⟩ => rfl

/-- A sum along the columns, read at row `r`: the sum of that row's entries. -/
theorem rowSum_apply (src : FVec Ideal ⟨2, ![R, N]⟩ φ) (acc : BitVec φ.bits)
    (h : (⟨2, ![R, N]⟩ : Shape).Reduces [(1 : Fin 2)] ⟨1, ![R]⟩) (hφ : FKind.Formats φ)
    (hacc : acc = FKind.add.neutral φ hφ) (r : Fin R) :
    multiReduction .add [(1 : Fin 2)] ⟨1, ![R]⟩ src acc h hφ hacc (ix1 r) = ∑ k : Fin N, src (ix2 r k) :=
  (Ideal.multiReduction_add_single src acc h hφ hacc (ix1 r)).trans
    (Finset.sum_congr rfl fun k _ => congrArg src (lift_row h r k))

/-- A maximum along the columns, read at row `r`: the fold of `max`, from the accumulator's value, over that row's
    entries. -/
theorem rowMax_apply (src : FVec Ideal ⟨2, ![R, N]⟩ φ) (acc : BitVec φ.bits)
    (h : (⟨2, ![R, N]⟩ : Shape).Reduces [(1 : Fin 2)] ⟨1, ![R]⟩) (hφ : FKind.Formats φ)
    (hacc : acc = FKind.maximumf.neutral φ hφ) (r : Fin R) :
    multiReduction .maximumf [(1 : Fin 2)] ⟨1, ![R]⟩ src acc h hφ hacc (ix1 r)
      = (Finset.univ : Finset (Fin N)).fold max (Ideal.ofBits φ acc) (fun k => src (ix2 r k)) := by
  have e : src ∘ h.lift (ix1 r) = fun k : Fin N => src (ix2 r k) := funext fun k => congrArg src (lift_row h r k)
  rw [Ideal.multiReduction_maximumf_single, e]
  rfl

/-- A vector of `R` values made an `R × 1` column reads, at `(r, u)`, the value at `r`. -/
theorem shapeCast_a_a1_apply (x : (⟨1, ![R]⟩ : Shape).Idx → α) (h : (⟨1, ![R]⟩ : Shape).ShapeCasts ⟨2, ![R, 1]⟩)
    (r : Fin R) (u : Fin 1) : shapeCast ⟨2, ![R, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `R × 1` column broadcast along `N` columns reads, at `(r, c)`, the column's entry at row `r`. -/
theorem broadcastTo_a1_ab_apply (v : (⟨2, ![R, 1]⟩ : Shape).Idx → α) (h : (⟨2, ![R, 1]⟩ : Shape).Broadcasts ⟨2, ![R, N]⟩)
    (r : Fin R) (c : Fin N) : broadcastTo ⟨2, ![R, N]⟩ v h (ix2 r c) = v (ix2 r (0 : Fin 1)) := by
  refine broadcastTo_apply v h (ix2 r c) (ix2 r (0 : Fin 1)) fun ax => ?_
  match ax with
  | ⟨0, _⟩ =>
    show r.val = if R = 1 then 0 else r.val
    split
    · have := r.isLt; omega
    · rfl
  | ⟨1, _⟩ =>
    show (0 : ℕ) = if (1 : ℕ) = 1 then 0 else c.val
    rw [if_pos rfl]

/-- The two together: a vector of row values, made a column and broadcast along the columns, reads the row's value. -/
theorem rowSplat_apply (x : (⟨1, ![R]⟩ : Shape).Idx → α) (hc : (⟨1, ![R]⟩ : Shape).ShapeCasts ⟨2, ![R, 1]⟩)
    (hb : (⟨2, ![R, 1]⟩ : Shape).Broadcasts ⟨2, ![R, N]⟩) (r : Fin R) (c : Fin N) :
    broadcastTo ⟨2, ![R, N]⟩ (shapeCast ⟨2, ![R, 1]⟩ x hc) hb (ix2 r c) = x (ix1 r) := by
  rw [broadcastTo_a1_ab_apply, shapeCast_a_a1_apply]

/-- A matrix index whose two coordinates are known is `ix2` of them. -/
theorem eq_ix2_of_val {n0 n1 : ℕ} (i : (⟨2, ![n0, n1]⟩ : Shape).Idx) (a : Fin n0) (b : Fin n1)
    (h0 : (i (0 : Fin 2)).val = a.val) (h1 : (i (1 : Fin 2)).val = b.val) : i = ix2 a b := by
  funext c
  apply Fin.ext
  match c with
  | ⟨0, _⟩ => exact h0
  | ⟨1, _⟩ => exact h1

/-- With no batch axes and the rows the left operand's one free axis, the left index's row is the result index's row,
    whatever the contraction position. -/
theorem lhsIdx_row (d : DotDims ⟨2, ![R, K]⟩ ⟨2, ![K, N]⟩ ⟨2, ![R, N]⟩)
    (hln : d.lhsNonContracting = [(0 : Fin 2)]) (hlb : d.lhsBatch = [])
    (j : (⟨2, ![R, N]⟩ : Shape).Idx) (q : d.contr.Idx) : (d.lhsIdx j q (0 : Fin 2)).val = (j (0 : Fin 2)).val := by
  have hnb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hnb, dif_pos hn]
  simp only [Fin.val_cast]
  have key : ∀ (p p' : ℕ) (hp : p < 2) (hp' : p' < 2), p = p' → (j ⟨p, hp⟩).val = (j ⟨p', hp'⟩).val :=
    fun p p' hp hp' e => by subst e; rfl
  exact key _ _ _ _ (by simp [hlb, hln])

/-- With no batch axes, the rows the left operand's one free axis and the columns the right operand's, the right index's
    column is the result index's column, whatever the contraction position. -/
theorem rhsIdx_col (d : DotDims ⟨2, ![R, K]⟩ ⟨2, ![K, N]⟩ ⟨2, ![R, N]⟩)
    (hln : d.lhsNonContracting = [(0 : Fin 2)]) (hrn : d.rhsNonContracting = [(1 : Fin 2)])
    (hlb : d.lhsBatch = []) (hrb : d.rhsBatch = [])
    (j : (⟨2, ![R, N]⟩ : Shape).Idx) (q : d.contr.Idx) : (d.rhsIdx j q (1 : Fin 2)).val = (j (1 : Fin 2)).val := by
  have hnb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hnb, dif_pos hn]
  simp only [Fin.val_cast]
  have key : ∀ (p p' : ℕ) (hp : p < 2) (hp' : p' < 2), p = p' → (j ⟨p, hp⟩).val = (j ⟨p', hp'⟩).val :=
    fun p p' hp hp' e => by subst e; rfl
  exact key _ _ _ _ (by simp [hlb, hln, hrn])

/-- A plain matrix product (`R × K` by `K × N`, the left operand's columns contracted against the right operand's rows,
    no batch axes) into the zero accumulator, read at `(r, j)`: the sum over `k` of row `r` of the left operand against
    column `j` of the right. -/
theorem matmul_row_apply (d : DotDims ⟨2, ![R, K]⟩ ⟨2, ![K, N]⟩ ⟨2, ![R, N]⟩)
    (hlc : d.lhsContracting = [(1 : Fin 2)]) (hrc : d.rhsContracting = [(0 : Fin 2)])
    (hln : d.lhsNonContracting = [(0 : Fin 2)]) (hrn : d.rhsNonContracting = [(1 : Fin 2)])
    (hlb : d.lhsBatch = []) (hrb : d.rhsBatch = [])
    (prec : Option ContractPrecision) (lhs : FVec Ideal ⟨2, ![R, K]⟩ φ₁) (rhs : FVec Ideal ⟨2, ![K, N]⟩ φ₂)
    (r : Fin R) (j : Fin N) :
    FloatOps.matmul d prec lhs rhs (constant ⟨2, ![R, N]⟩ .f32 0x00000000#32) (ix2 r j)
      = ∑ k : Fin K, lhs (ix2 r k) * rhs (ix2 k j) := by
  have hr : d.contr.rank = 1 := by rw [d.rank_contr, hlc]; rfl
  have hs : d.contr.size ⟨0, by omega⟩ = K := by
    have h0 : 0 < d.lhsContracting.length := by rw [hlc]; exact Nat.one_pos
    have e1 : d.lhsContracting[0] = (1 : Fin 2) := by simp [hlc]
    exact (d.size_contr 0 h0).trans (by rw [e1]; rfl)
  rw [Ideal.matmul_constant_zero_apply]
  refine ((contrEquiv1 d K hr hs).symm.sum_comp _).symm.trans (Finset.sum_congr rfl fun k _ => ?_)
  have hL : d.lhsIdx (ix2 r j) ((contrEquiv1 d K hr hs).symm k) = ix2 r k :=
    eq_ix2_of_val _ r k (lhsIdx_row d hln hlb _ _)
      ((d.lhsIdx_val_of_single hlc _ _).trans (contrEquiv1_symm_val d K hr hs k))
  have hR : d.rhsIdx (ix2 r j) ((contrEquiv1 d K hr hs).symm k) = ix2 k j :=
    eq_ix2_of_val _ k j ((d.rhsIdx_val_of_single hrc _ _).trans (contrEquiv1_symm_val d K hr hs k))
      (rhsIdx_col d hln hrn hlb hrb _ _)
  show lhs (d.lhsIdx (ix2 r j) ((contrEquiv1 d K hr hs).symm k)) * rhs (d.rhsIdx (ix2 r j) ((contrEquiv1 d K hr hs).symm k)) = _
  rw [hL, hR]

end Cert.RowOps

end
-- ==== Proof.Spec.lean ====
/-
  The three dense stages of a two-layer graph convolution, as functions of whole matrices over the extended reals,
  index by index. Each is row-wise: row `r` of the result depends on row `r` of the left operand only, which is why a
  kernel may compute them on blocks of rows.
    * `mm x w`        the matrix product, `(r, j) ↦ ∑ k, x (r, k) · w (k, j)`;
    * `biasRelu a b`  `(r, j) ↦ max (a (r, j) + b (0, j)) 0` for a one-row bias `b`;
    * `biasLogSoftmax a b`  with `z (r, j) = a (r, j) + b (0, j)` and `μ r` the maximum of row `r` of `z`:
                        `(r, j) ↦ (z (r, j) - μ r) - log (∑ k, exp (z (r, k) - μ r))`.
  The zero of `biasRelu` and the bottom the row maximum starts from are kept as the float words both programs spell.
-/
import Idealize.ShloMosaic.PureOps.Ideal
import Idealize.ShloMosaic.Lib.ValueIdx

noncomputable section

open scoped BigOperators

namespace Cert.Spec

open Idealize.ShloMosaic Idealize.ShloMosaic.ValueIdx

variable {R K N : ℕ}

/-- A real matrix of `R` rows and `N` columns, entries extended reals. -/
abbrev Mat (R N : ℕ) := FVec Ideal (⟨2, ![R, N]⟩ : Shape) .f32

/-- The row of an index, and its column. -/
abbrev row (i : (⟨2, ![R, N]⟩ : Shape).Idx) : Fin R := i 0
abbrev col (i : (⟨2, ![R, N]⟩ : Shape).Idx) : Fin N := i 1

/-- The matrix product. -/
def mm (x : Mat R K) (w : Mat K N) : Mat R N :=
  fun i => ∑ k : Fin K, x (ix2 (row i) k) * w (ix2 k (col i))

/-- The float word of `0.0` and of `-∞`, as both programs spell them. -/
abbrev zeroW : EReal := Ideal.ofBits .f32 0x00000000#32
abbrev botW : EReal := Ideal.ofBits .f32 0xFF800000#32

/-- Add a one-row bias to every row, then clamp below at zero. -/
def biasRelu (a : Mat R N) (b : Mat 1 N) : Mat R N :=
  fun i => max (a i + b (ix2 (0 : Fin 1) (col i))) zeroW

/-- The biased logits. -/
def biased (a : Mat R N) (b : Mat 1 N) : Mat R N :=
  fun i => a i + b (ix2 (0 : Fin 1) (col i))

/-- The maximum of row `r`, folded from `-∞`. -/
def rowMax (z : Mat R N) (r : Fin R) : EReal :=
  (Finset.univ : Finset (Fin N)).fold max botW (fun k => z (ix2 r k))

/-- A row's logits shifted by the row's maximum. -/
def shifted (z : Mat R N) : Mat R N :=
  fun i => z i - rowMax z (row i)

/-- Add a one-row bias to every row, then the logarithm of the softmax along each row, computed the stable way. -/
def biasLogSoftmax (a : Mat R N) (b : Mat 1 N) : Mat R N :=
  fun i => shifted (biased a b) i - Ideal.log (∑ k : Fin N, Ideal.exp (shifted (biased a b) (ix2 (row i) k)))

end Cert.Spec

end
-- ==== Proof.RegionMM.lean ====
/-
  The two matrix-product regions, each as ONE function of its arrays as the region finds them: the region's output array
  ends holding the matrix product of its two input arrays. The kernel cuts the left operand into blocks of 2000 rows and
  multiplies each block by the whole right operand; a product's row depends only on the same row of the left operand,
  so block `t` of the product is what point `t` writes, and the fifty blocks tile the array.
-/
import proofs.«143489_j45354854645958_1_alg».proof.Proof.KernelIdealFrame
import proofs.«143489_j45354854645958_1_alg».proof.Proof.LibRowOps
import proofs.«143489_j45354854645958_1_alg».proof.Proof.Spec
import Idealize.ShloMosaic.Lib.Pipeline.Value
import Idealize.ShloMosaic.Lib.ValueLayout
import Idealize.ShloMosaic.PureOps.Ideal.Laws

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Regions

open Cert.KernelIdeal Cert.KernelIdeal.Gen Cert.KernelIdeal.GenP

/-- The offsets of a whole-block rectangle are zero on both axes. -/
theorem mm_offsets_zero : (![0, 0] : Fin 2 → Nat) = fun _ => 0 := funext fun a => by fin_cases a <;> rfl

variable (V : (c : Dev nD) → (b : Ref sig .tc) → Buf (Elt Ideal) ((c : Thread nD τ).loc b))

/-! ## Region 0: the first layer's feature product `x · W₁` -/

/-- The block product at (row, column): rounding to the narrower format is the identity on the extended reals, so
    the entry is the sum, over the contracted axis, of row `p` of the left block against column `q` of the right operand. -/
theorem blockProd0_apply (x0 : Vec Ideal S2000x512 .f32) (x1 : Vec Ideal S512x128 .f32) (p : Fin 2000) (q : Fin 128) :
    k0_pay1 (F := Ideal) x0 x1 (ix2 p q) = ∑ k : Fin 512, x0 (ix2 p k) * x1 (ix2 k q) := by
  unfold k0_pay1
  refine (Cert.RowOps.matmul_row_apply dot_S2000x512_S512x128_S2000x128_1_0_0_1_n_n rfl rfl rfl rfl rfl rfl none _ _ p q).trans ?_
  rfl

/-- A row of the product depends on the same row of the left operand only: when row `p` of the left block is row
    `row i` of the whole left operand and the right block is the whole right operand, entry `(p, q)` of the block product
    is entry `i` of the whole product, `q` being the column of `i`. -/
theorem blockProd0_of_rows (A : Spec.Mat 100000 512) (B : Spec.Mat 512 128)
    (x0 : Vec Ideal S2000x512 .f32) (x1 : Vec Ideal S512x128 .f32) (p : Fin 2000) (q : Fin 128) (i : S100000x128.Idx)
    (h0 : ∀ k : Fin 512, x0 (ix2 p k) = A (ix2 (Spec.row i) k))
    (h1 : ∀ k : Fin 512, x1 (ix2 k q) = B (ix2 k (Spec.col i))) :
    k0_pay1 (F := Ideal) x0 x1 (ix2 p q) = Spec.mm A B i :=
  (blockProd0_apply x0 x1 p q).trans (Finset.sum_congr rfl fun k _ => by rw [h0 k, h1 k])

/-- The block indices over the grid: at point `t` the left operand's block and the product's block are block `t` of
    the rows and block 0 of the columns; the right operand's block is block 0 on both axes. -/
theorem mmBlockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the matrix product of the two input arrays as the region finds them:
    entry `(p, q)` of the block sits at row `2000 t + p`, whose left-operand row is row `p` of the left block at `t`. -/
theorem mmFlushed0 (c : Dev nD) (t : Fin cfg0.N) :
    (dat0 (F := Ideal) V c).flushed 2 t = ((cfg0.win 2).blk t).view.read (Elt Ideal)
      (Spec.mm (V c main_arg0 : Vec Ideal S100000x512 .f32) (V c main_arg3 : Vec Ideal S512x128 .f32)) := by
  show (cfg0.win 2).cut (grid0.coords t) ((dat0 V c).after 2 t) = _
  rw [after0_2]
  unfold out0_2
  rw [View.canon_unit_zero mm_offsets_zero]
  simp only [View.ld_unit_zero (S := S2000x512) mm_offsets_zero, View.ld_unit_zero (S := S512x128) mm_offsets_zero]
  obtain ⟨e00, e01, e10, e11, e20, e21⟩ := mmBlockIndex0 t
  refine funext fun (j : S2000x128.Idx) => ?_
  obtain ⟨p, q, rfl⟩ : ∃ (p : Fin 2000) (q : Fin 128), j = ix2 p q := ⟨j 0, j 1, eq_ix2 j⟩
  refine blockProd0_of_rows (V c main_arg0) (V c main_arg3) _ _ p q (((cfg0.win 2).blk t).view.emb (ix2 p q))
    (fun k => ?_) (fun k => ?_)
  · have h0 : (((cfg0.win 0).blk t).view.emb (ix2 p k) : S100000x512.Idx)
        = ix2 (Spec.row (((cfg0.win 2).blk t).view.emb (ix2 p q) : S100000x128.Idx)) k := by
      funext a; apply Fin.ext
      match a with
      | ⟨0, _⟩ =>
        show win0_0.index t (0 : Fin 2) * 2000 + 1 * p.val = win0_2.index t (0 : Fin 2) * 2000 + 1 * p.val
        omega
      | ⟨1, _⟩ => show win0_0.index t (1 : Fin 2) * 512 + 1 * k.val = k.val; omega
    show (V c main_arg0 : S100000x512.Idx → EReal) (((cfg0.win 0).blk t).view.emb (ix2 p k)) = _
    rw [h0]
  · have h1 : (((cfg0.win 1).blk t).view.emb (ix2 k q) : S512x128.Idx)
        = ix2 k (Spec.col (((cfg0.win 2).blk t).view.emb (ix2 p q) : S100000x128.Idx)) := by
      funext a; apply Fin.ext
      match a with
      | ⟨0, _⟩ => show win0_1.index t (0 : Fin 2) * 512 + 1 * k.val = k.val; omega
      | ⟨1, _⟩ =>
        show win0_1.index t (1 : Fin 2) * 128 + 1 * q.val = win0_2.index t (1 : Fin 2) * 128 + 1 * q.val
        omega
    show (V c main_arg3 : S512x128.Idx → EReal) (((cfg0.win 1).blk t).view.emb (ix2 k q)) = _
    rw [h1]

/-- An index of the product array lies in point `t`'s output block iff each coordinate lies in the block's range on
    its axis. -/
theorem mem_mmBlock0 (t : Fin cfg0.N) (i : S100000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v23).slice (win0_2.rect t)).set ↔ _
  rw [View.set_slice_whole, Rect.mem_set_unit]
  exact Iff.rfl

/-- Row `r` of the product lies in the block of point `r / 2000`: the fifty blocks of 2000 rows tile the 100000 rows,
    and each block holds every column. -/
theorem mmCover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 2000 :=
    ⟨⟨(i 0).val / 2000, show (i 0).val / 2000 < grid0.N by rw [N_0]; omega⟩, rfl⟩
  obtain ⟨-, -, -, -, e20, e21⟩ := mmBlockIndex0 t
  refine ⟨t, flush0_2 t, ?_⟩
  rw [mem_mmBlock0]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 128 ≤ (i 1).val ∧ (i 1).val < win0_2.index t (1 : Fin 2) * 128 + 128
    omega

/-- Region 0: the first layer's feature product `x · W₁`. -/
theorem region0_array (c : Dev nD) :
    (dat0 (F := Ideal) V c).arrAt 2 cfg0.N
      = Spec.mm (V c main_arg0 : Vec Ideal S100000x512 .f32) (V c main_arg3 : Vec Ideal S512x128 .f32) :=
  (dat0 (F := Ideal) V c).arrAt_eq_of_cover 2 _ (fun t _ => mmFlushed0 V c t) mmCover0

/-! ## Region 2: the second layer's feature product `h₁ · W₂` -/

/-- The block product at (row, column): rounding to the narrower format is the identity on the extended reals and the cast of the left block to its own shape changes nothing, so
    the entry is the sum, over the contracted axis, of row `p` of the left block against column `q` of the right operand. -/
theorem blockProd2_apply (x0 : Vec Ideal S2000x128 .f32) (x1 : Vec Ideal S128x64 .f32) (p : Fin 2000) (q : Fin 64) :
    k2_pay1 (F := Ideal) x0 x1 (ix2 p q) = ∑ k : Fin 128, x0 (ix2 p k) * x1 (ix2 k q) := by
  unfold k2_pay1
  refine (Cert.RowOps.matmul_row_apply dot_S2000x128_S128x64_S2000x64_1_0_0_1_n_n rfl rfl rfl rfl rfl rfl none _ _ p q).trans ?_
  rw [shapeCast_self]
  rfl

/-- A row of the product depends on the same row of the left operand only: when row `p` of the left block is row
    `row i` of the whole left operand and the right block is the whole right operand, entry `(p, q)` of the block product
    is entry `i` of the whole product, `q` being the column of `i`. -/
theorem blockProd2_of_rows (A : Spec.Mat 100000 128) (B : Spec.Mat 128 64)
    (x0 : Vec Ideal S2000x128 .f32) (x1 : Vec Ideal S128x64 .f32) (p : Fin 2000) (q : Fin 64) (i : S100000x64.Idx)
    (h0 : ∀ k : Fin 128, x0 (ix2 p k) = A (ix2 (Spec.row i) k))
    (h1 : ∀ k : Fin 128, x1 (ix2 k q) = B (ix2 k (Spec.col i))) :
    k2_pay1 (F := Ideal) x0 x1 (ix2 p q) = Spec.mm A B i :=
  (blockProd2_apply x0 x1 p q).trans (Finset.sum_congr rfl fun k _ => by rw [h0 k, h1 k])

/-- The block indices over the grid: at point `t` the left operand's block and the product's block are block `t` of
    the rows and block 0 of the columns; the right operand's block is block 0 on both axes. -/
theorem mmBlockIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the matrix product of the two input arrays as the region finds them:
    entry `(p, q)` of the block sits at row `2000 t + p`, whose left-operand row is row `p` of the left block at `t`. -/
theorem mmFlushed2 (c : Dev nD) (t : Fin cfg2.N) :
    (dat2 (F := Ideal) V c).flushed 2 t = ((cfg2.win 2).blk t).view.read (Elt Ideal)
      (Spec.mm (V c main_v38 : Vec Ideal S100000x128 .f32) (V c main_arg5 : Vec Ideal S128x64 .f32)) := by
  show (cfg2.win 2).cut (grid2.coords t) ((dat2 V c).after 2 t) = _
  rw [after2_2]
  unfold out2_2
  rw [View.canon_unit_zero mm_offsets_zero]
  simp only [View.ld_unit_zero (S := S2000x128) mm_offsets_zero, View.ld_unit_zero (S := S128x64) mm_offsets_zero]
  obtain ⟨e00, e01, e10, e11, e20, e21⟩ := mmBlockIndex2 t
  refine funext fun (j : S2000x64.Idx) => ?_
  obtain ⟨p, q, rfl⟩ : ∃ (p : Fin 2000) (q : Fin 64), j = ix2 p q := ⟨j 0, j 1, eq_ix2 j⟩
  refine blockProd2_of_rows (V c main_v38) (V c main_arg5) _ _ p q (((cfg2.win 2).blk t).view.emb (ix2 p q))
    (fun k => ?_) (fun k => ?_)
  · have h0 : (((cfg2.win 0).blk t).view.emb (ix2 p k) : S100000x128.Idx)
        = ix2 (Spec.row (((cfg2.win 2).blk t).view.emb (ix2 p q) : S100000x64.Idx)) k := by
      funext a; apply Fin.ext
      match a with
      | ⟨0, _⟩ =>
        show win2_0.index t (0 : Fin 2) * 2000 + 1 * p.val = win2_2.index t (0 : Fin 2) * 2000 + 1 * p.val
        omega
      | ⟨1, _⟩ => show win2_0.index t (1 : Fin 2) * 128 + 1 * k.val = k.val; omega
    show (V c main_v38 : S100000x128.Idx → EReal) (((cfg2.win 0).blk t).view.emb (ix2 p k)) = _
    rw [h0]
  · have h1 : (((cfg2.win 1).blk t).view.emb (ix2 k q) : S128x64.Idx)
        = ix2 k (Spec.col (((cfg2.win 2).blk t).view.emb (ix2 p q) : S100000x64.Idx)) := by
      funext a; apply Fin.ext
      match a with
      | ⟨0, _⟩ => show win2_1.index t (0 : Fin 2) * 128 + 1 * k.val = k.val; omega
      | ⟨1, _⟩ =>
        show win2_1.index t (1 : Fin 2) * 64 + 1 * q.val = win2_2.index t (1 : Fin 2) * 64 + 1 * q.val
        omega
    show (V c main_arg5 : S128x64.Idx → EReal) (((cfg2.win 1).blk t).view.emb (ix2 k q)) = _
    rw [h1]

/-- An index of the product array lies in point `t`'s output block iff each coordinate lies in the block's range on
    its axis. -/
theorem mem_mmBlock2 (t : Fin cfg2.N) (i : S100000x64.Idx) :
    i ∈ ((cfg2.win 2).blk t).view.set ↔ ∀ a : Fin 2, win2_2.index t a * S2000x64.size a ≤ (i a).val
      ∧ (i a).val < win2_2.index t a * S2000x64.size a + S2000x64.size a := by
  show i ∈ ((View.whole main_v39).slice (win2_2.rect t)).set ↔ _
  rw [View.set_slice_whole, Rect.mem_set_unit]
  exact Iff.rfl

/-- Row `r` of the product lies in the block of point `r / 2000`: the fifty blocks of 2000 rows tile the 100000 rows,
    and each block holds every column. -/
theorem mmCover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ : ∃ t : Fin cfg2.N, t.val = (i 0).val / 2000 :=
    ⟨⟨(i 0).val / 2000, show (i 0).val / 2000 < grid2.N by rw [N_2]; omega⟩, rfl⟩
  obtain ⟨-, -, -, -, e20, e21⟩ := mmBlockIndex2 t
  refine ⟨t, flush2_2 t, ?_⟩
  rw [mem_mmBlock2]
  intro a
  match a with
  | ⟨0, _⟩ =>
    show win2_2.index t (0 : Fin 2) * 2000 ≤ (i 0).val ∧ (i 0).val < win2_2.index t (0 : Fin 2) * 2000 + 2000
    omega
  | ⟨1, _⟩ =>
    show win2_2.index t (1 : Fin 2) * 64 ≤ (i 1).val ∧ (i 1).val < win2_2.index t (1 : Fin 2) * 64 + 64
    omega

/-- Region 2: the second layer's feature product `h₁ · W₂`. -/
theorem region2_array (c : Dev nD) :
    (dat2 (F := Ideal) V c).arrAt 2 cfg2.N
      = Spec.mm (V c main_v38 : Vec Ideal S100000x128 .f32) (V c main_arg5 : Vec Ideal S128x64 .f32) :=
  (dat2 (F := Ideal) V c).arrAt_eq_of_cover 2 _ (fun t _ => mmFlushed2 V c t) mmCover2

end Cert.KernelIdeal.Regions

end
-- ==== Proof.RegionEpilogue.lean ====
/-
  The two epilogue regions, each as ONE function of its arrays as the region finds them: bias and clamp at zero after the
  first aggregation, bias and row-wise log-softmax after the second. Both act on each row by itself, the kernel takes
  4000 rows per grid point with the one-row bias whole at every point, and the twenty-five blocks tile the array.
-/
import proofs.«143489_j45354854645958_1_alg».proof.Proof.KernelIdealFrame
import proofs.«143489_j45354854645958_1_alg».proof.Proof.LibRowOps
import proofs.«143489_j45354854645958_1_alg».proof.Proof.Spec
import Idealize.ShloMosaic.Lib.Pipeline.Value
import Idealize.ShloMosaic.Lib.ValueLayout
import Idealize.ShloMosaic.PureOps.Ideal.Laws

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Regions

open Cert.KernelIdeal Cert.KernelIdeal.Gen Cert.KernelIdeal.GenP

/-! ## Functions of a matrix index, compared coordinate by coordinate -/

/-- Two functions of a matrix index that agree at every (row, column) are equal. -/
theorem ext_rows_cols {n0 n1 : ℕ} {α : Type} {f g : (⟨2, ![n0, n1]⟩ : Shape).Idx → α}
    (h : ∀ (p : Fin n0) (q : Fin n1), f (ix2 p q) = g (ix2 p q)) : f = g :=
  funext fun j => by rw [eq_ix2 j]; exact h _ _

/-- The offsets of a whole-block rectangle are zero on both axes. -/
theorem offsets_zero : (![0, 0] : Fin 2 → Nat) = fun _ => 0 := funext fun a => by fin_cases a <;> rfl

/-! ## Both epilogues act on each row by itself -/

/-- Bias and clamp at `(p, q)` read the operand at `(p, q)` only: a matrix that has there what another has at
    `(r, q)` gives there what the other gives at `(r, q)`. -/
theorem biasRelu_at_row {R R' N : ℕ} (x : Spec.Mat R N) (a : Spec.Mat R' N) (b : Spec.Mat 1 N) (p : Fin R) (r : Fin R')
    (q : Fin N) (h : x (ix2 p q) = a (ix2 r q)) : Spec.biasRelu x b (ix2 p q) = Spec.biasRelu a b (ix2 r q) := by
  show max (x (ix2 p q) + b (ix2 (0 : Fin 1) q)) Spec.zeroW = max (a (ix2 r q) + b (ix2 (0 : Fin 1) q)) Spec.zeroW
  rw [h]

/-- The biased logits of a row are that row's entries plus the bias. -/
theorem biased_at_row {R R' N : ℕ} (x : Spec.Mat R N) (a : Spec.Mat R' N) (b : Spec.Mat 1 N) (p : Fin R) (r : Fin R')
    (h : ∀ k : Fin N, x (ix2 p k) = a (ix2 r k)) (k : Fin N) : Spec.biased x b (ix2 p k) = Spec.biased a b (ix2 r k) := by
  show x (ix2 p k) + b (ix2 (0 : Fin 1) k) = a (ix2 r k) + b (ix2 (0 : Fin 1) k)
  rw [h k]

/-- The maximum of a row depends on that row only. -/
theorem rowMax_at_row {R R' N : ℕ} (z : Spec.Mat R N) (y : Spec.Mat R' N) (p : Fin R) (r : Fin R')
    (h : ∀ k : Fin N, z (ix2 p k) = y (ix2 r k)) : Spec.rowMax z p = Spec.rowMax y r := by
  unfold Spec.rowMax
  rw [show (fun k => z (ix2 p k)) = fun k => y (ix2 r k) from funext h]

/-- So do a row's shifted logits. -/
theorem shifted_at_row {R R' N : ℕ} (z : Spec.Mat R N) (y : Spec.Mat R' N) (p : Fin R) (r : Fin R')
    (h : ∀ k : Fin N, z (ix2 p k) = y (ix2 r k)) (k : Fin N) : Spec.shifted z (ix2 p k) = Spec.shifted y (ix2 r k) := by
  show z (ix2 p k) - Spec.rowMax z p = y (ix2 r k) - Spec.rowMax y r
  rw [h k, rowMax_at_row z y p r h]

/-- The log-softmax of the biased logits at `(p, q)` reads row `p` of the operand only: a matrix whose row `p` is
    another's row `r` gives at `(p, q)` what the other gives at `(r, q)`. -/
theorem biasLogSoftmax_at_row {R R' N : ℕ} (x : Spec.Mat R N) (a : Spec.Mat R' N) (b : Spec.Mat 1 N) (p : Fin R)
    (r : Fin R') (h : ∀ k : Fin N, x (ix2 p k) = a (ix2 r k)) (q : Fin N) :
    Spec.biasLogSoftmax x b (ix2 p q) = Spec.biasLogSoftmax a b (ix2 r q) := by
  have hs := shifted_at_row (Spec.biased x b) (Spec.biased a b) p r (biased_at_row x a b p r h)
  show Spec.shifted (Spec.biased x b) (ix2 p q) - Ideal.log (∑ k : Fin N, Ideal.exp (Spec.shifted (Spec.biased x b) (ix2 p k)))
    = Spec.shifted (Spec.biased a b) (ix2 r q) - Ideal.log (∑ k : Fin N, Ideal.exp (Spec.shifted (Spec.biased a b) (ix2 r k)))
  rw [hs q, Finset.sum_congr rfl fun k _ => congrArg Ideal.exp (hs k)]

/-! ## The payloads, index by index -/

/-- Region 1's payload is bias and clamp of its two blocks. -/
theorem biasRelu_payload (x0 : Vec Ideal S4000x128 .f32) (x1 : Vec Ideal S1x128 .f32) :
    k1_pay1 (F := Ideal) x0 x1 = Spec.biasRelu x0 x1 := by
  refine ext_rows_cols fun p q => ?_
  unfold k1_pay1
  rw [maximumf_apply, addf_apply, broadcast_apply, shapeCast_self, shapeCast_self, broadcastTo_1b_ab_apply]
  rfl

/-- The maximum along the columns, made a column and broadcast back along the rows, reads at `(p, q)` the maximum of
    row `p`. -/
theorem rowMax_splat (z : FVec Ideal S4000x64 .f32) (p : Fin 4000) (q : Fin 64) :
    broadcastTo S4000x64 (shapeCast S4000x1
        (multiReduction (F := Ideal) .maximumf [1] S4000 z 0xFF800000#32 reduces_S4000x64_S4000 (.inl rfl) rfl)
        shapeCasts_S4000_S4000x1) broadcasts_S4000x1_S4000x64 (ix2 p q)
      = Spec.rowMax z p := by
  rw [RowOps.rowSplat_apply]
  exact RowOps.rowMax_apply z _ _ _ _ p

/-- The logarithm of the sum along the columns, as a column broadcast back along the rows, reads at `(p, q)` the
    logarithm of the sum of row `p`. -/
theorem logRowSum_splat (w : FVec Ideal S4000x64 .f32) (p : Fin 4000) (q : Fin 64) :
    broadcastTo S4000x64 (log (shapeCast S4000x1
        (multiReduction (F := Ideal) .add [1] S4000 w 0x00000000#32 reduces_S4000x64_S4000 (.inl rfl) rfl)
        shapeCasts_S4000_S4000x1)) broadcasts_S4000x1_S4000x64 (ix2 p q)
      = Ideal.log (∑ k : Fin 64, w (ix2 p k)) := by
  rw [RowOps.broadcastTo_a1_ab_apply]
  show Ideal.log (shapeCast S4000x1 _ shapeCasts_S4000_S4000x1 (ix2 p (0 : Fin 1))) = _
  rw [RowOps.shapeCast_a_a1_apply]
  exact congrArg Ideal.log (RowOps.rowSum_apply w _ _ _ _ p)

/-- The bias add both epilogues start with: the block plus the one-row bias on every row. -/
theorem biased_block (x0 : Vec Ideal S4000x64 .f32) (x1 : Vec Ideal S1x64 .f32) :
    addf (shapeCast S4000x64 x0 shapeCasts_S4000x64_S4000x64)
        (broadcastTo S4000x64 (shapeCast S1x64 x1 shapeCasts_S1x64_S1x64) broadcasts_S1x64_S4000x64)
      = Spec.biased x0 x1 := by
  refine ext_rows_cols fun p k => ?_
  rw [addf_apply, shapeCast_self, shapeCast_self, broadcastTo_1b_ab_apply]
  rfl

/-- Region 3's payload is the row-wise log-softmax of its block plus the bias. -/
theorem biasLogSoftmax_payload (x0 : Vec Ideal S4000x64 .f32) (x1 : Vec Ideal S1x64 .f32) :
    k3_pay1 (F := Ideal) x0 x1 = Spec.biasLogSoftmax x0 x1 := by
  refine ext_rows_cols fun p q => ?_
  unfold k3_pay1
  rw [biased_block]
  have hsh : subf (Spec.biased x0 x1) (broadcastTo S4000x64 (shapeCast S4000x1
        (multiReduction (F := Ideal) .maximumf [1] S4000 (Spec.biased x0 x1) 0xFF800000#32 reduces_S4000x64_S4000 (.inl rfl) rfl)
        shapeCasts_S4000_S4000x1) broadcasts_S4000x1_S4000x64) = Spec.shifted (Spec.biased x0 x1) := by
    refine ext_rows_cols fun p k => ?_
    rw [subf_apply, rowMax_splat]
    rfl
  rw [hsh, subf_apply, logRowSum_splat]
  rfl

variable (V : (c : Dev nD) → (b : Ref sig .tc) → Buf (Elt Ideal) ((c : Thread nD τ).loc b))

/-! ## Region 1: the twenty-five row blocks -/

/-- The block indices of region 1's windows at every grid point: the operand's and the result's row block is the
    point's, the bias block stays where it is. -/
theorem block_indices1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `p` of the operand's block at point `t` is row `4000 t + p` of the operand. -/
theorem operand_rows1 (c : Dev nD) (t : Fin cfg1.N) (p : Fin 4000) (k : Fin 128) (r : Fin 100000)
    (hr : r.val = t.val * 4000 + p.val) :
    (iblk1 (F := Ideal) V c 0 t : Vec Ideal S4000x128 .f32) (ix2 p k)
      = (V c main_v36 : Vec Ideal S100000x128 .f32) (ix2 r k) := by
  obtain ⟨e0, e1, -⟩ := block_indices1 t
  unfold iblk1
  show V c main_v36 (((cfg1.win 0).blk t).view.emb (ix2 p k)) = V c main_v36 (ix2 r k)
  refine congrArg _ (RowOps.eq_ix2_of_val _ r k ?_ ?_)
  · show win1_0.index t (0 : Fin 2) * 4000 + 1 * p.val = r.val
    rw [e0, hr]; omega
  · show win1_0.index t (1 : Fin 2) * 128 + 1 * k.val = k.val
    rw [e1]; omega

/-- The bias block at every point is the whole one-row bias. -/
theorem bias_whole1 (c : Dev nD) (t : Fin cfg1.N) :
    (iblk1 (F := Ideal) V c 1 t : Vec Ideal S1x128 .f32) = (V c main_v37 : Vec Ideal S1x128 .f32) := by
  obtain ⟨-, -, e0, e1, -⟩ := block_indices1 t
  refine ext_rows_cols fun u k => ?_
  unfold iblk1
  show V c main_v37 (((cfg1.win 1).blk t).view.emb (ix2 u k)) = V c main_v37 (ix2 u k)
  refine congrArg _ (RowOps.eq_ix2_of_val _ u k ?_ ?_)
  · show win1_1.index t (0 : Fin 2) * 1 + 1 * u.val = u.val
    rw [e0]; omega
  · show win1_1.index t (1 : Fin 2) * 128 + 1 * k.val = k.val
    rw [e1]; omega

/-- What point `t` writes back is block `t` of the bias and clamp of the whole arrays. -/
theorem region1_block (c : Dev nD) (t : Fin cfg1.N) :
    (dat1 (F := Ideal) V c).flushed 2 t
      = ((cfg1.win 2).blk t).view.read (Elt Ideal)
          (Spec.biasRelu (V c main_v36 : Vec Ideal S100000x128 .f32) (V c main_v37 : Vec Ideal S1x128 .f32)) := by
  show (cfg1.win 2).cut (grid1.coords t) ((dat1 V c).after 2 t) = _
  rw [after1_2]
  unfold out1_2
  rw [View.canon_unit_zero offsets_zero]
  simp only [View.ld_unit_zero (S := S4000x128) offsets_zero, View.ld_unit_zero (S := S1x128) offsets_zero]
  refine ext_rows_cols (n0 := 4000) (n1 := 128) fun p q => ?_
  have ht : t.val < 25 := lt_of_lt_of_eq t.isLt (show cfg1.N = 25 from N_1)
  obtain ⟨-, -, -, -, e0, e1⟩ := block_indices1 t
  have hr : ((cfg1.win 2).blk t).view.emb (ix2 p q) = ix2 (⟨t.val * 4000 + p.val, by omega⟩ : Fin 100000) q := by
    refine RowOps.eq_ix2_of_val _ _ q ?_ ?_
    · show win1_2.index t (0 : Fin 2) * 4000 + 1 * p.val = t.val * 4000 + p.val
      rw [e0]; omega
    · show win1_2.index t (1 : Fin 2) * 128 + 1 * q.val = q.val
      rw [e1]; omega
  show k1_pay1 (F := Ideal) (iblk1 V c 0 t) (iblk1 V c 1 t) (ix2 p q)
    = Spec.biasRelu (V c main_v36 : Vec Ideal S100000x128 .f32) (V c main_v37 : Vec Ideal S1x128 .f32)
        (((cfg1.win 2).blk t).view.emb (ix2 p q))
  rw [hr]
  refine (congrFun (biasRelu_payload _ _) (ix2 p q)).trans ?_
  rw [bias_whole1]
  exact biasRelu_at_row _ _ _ p _ q (operand_rows1 V c t p q _ rfl)

/-- An index of the result array is in point `t`'s block iff each coordinate is in the block's range on its axis. -/
theorem mem_block1 (t : Fin cfg1.N) (i : S100000x128.Idx) :
    i ∈ ((cfg1.win 2).blk t).view.set
      ↔ ∀ a : Fin 2, win1_2.index t a * S4000x128.size a ≤ (i a).val
          ∧ (i a).val < win1_2.index t a * S4000x128.size a + S4000x128.size a := by
  show i ∈ ((View.whole main_v38).slice (win1_2.rect t)).set ↔ _
  rw [View.set_slice_whole, Rect.mem_set_unit]
  exact Iff.rfl

/-- Row `r` of the result lies in the block of point `r / 4000`: the blocks tile the array. -/
theorem region1_cover (i : S100000x128.Idx) :
    ∃ t : Fin cfg1.N, (cfg1.win 2).flush t = true ∧ i ∈ ((cfg1.win 2).blk t).view.set := by
  have hN : cfg1.N = 25 := N_1
  have h0 : (i 0).val < 100000 := (i 0).isLt
  have h1 : (i 1).val < 128 := (i 1).isLt
  have hlt : (i 0).val / 4000 < cfg1.N := by rw [hN]; omega
  refine ⟨⟨(i 0).val / 4000, hlt⟩, flush1_2 _, ?_⟩
  obtain ⟨-, -, -, -, e0, e1⟩ := block_indices1 ⟨(i 0).val / 4000, hlt⟩
  rw [mem_block1]
  intro a
  match a with
  | ⟨0, _⟩ =>
    show win1_2.index ⟨(i 0).val / 4000, hlt⟩ (0 : Fin 2) * 4000 ≤ (i 0).val
      ∧ (i 0).val < win1_2.index ⟨(i 0).val / 4000, hlt⟩ (0 : Fin 2) * 4000 + 4000
    rw [e0]
    show (i 0).val / 4000 * 4000 ≤ (i 0).val ∧ (i 0).val < (i 0).val / 4000 * 4000 + 4000
    omega
  | ⟨1, _⟩ =>
    show win1_2.index ⟨(i 0).val / 4000, hlt⟩ (1 : Fin 2) * 128 ≤ (i 1).val
      ∧ (i 1).val < win1_2.index ⟨(i 0).val / 4000, hlt⟩ (1 : Fin 2) * 128 + 128
    rw [e1]
    omega

/-! ## Region 3: the twenty-five row blocks -/

/-- The block indices of region 3's windows at every grid point: the logits' and the result's row block is the
    point's, the bias block stays where it is. -/
theorem block_indices3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row `p` of the logits' block at point `t` is row `4000 t + p` of the logits. -/
theorem operand_rows3 (c : Dev nD) (t : Fin cfg3.N) (p : Fin 4000) (k : Fin 64) (r : Fin 100000)
    (hr : r.val = t.val * 4000 + p.val) :
    (iblk3 (F := Ideal) V c 0 t : Vec Ideal S4000x64 .f32) (ix2 p k)
      = (V c main_v52 : Vec Ideal S100000x64 .f32) (ix2 r k) := by
  obtain ⟨e0, e1, -⟩ := block_indices3 t
  unfold iblk3
  show V c main_v52 (((cfg3.win 0).blk t).view.emb (ix2 p k)) = V c main_v52 (ix2 r k)
  refine congrArg _ (RowOps.eq_ix2_of_val _ r k ?_ ?_)
  · show win3_0.index t (0 : Fin 2) * 4000 + 1 * p.val = r.val
    rw [e0, hr]; omega
  · show win3_0.index t (1 : Fin 2) * 64 + 1 * k.val = k.val
    rw [e1]; omega

/-- The bias block at every point is the whole one-row bias. -/
theorem bias_whole3 (c : Dev nD) (t : Fin cfg3.N) :
    (iblk3 (F := Ideal) V c 1 t : Vec Ideal S1x64 .f32) = (V c main_v53 : Vec Ideal S1x64 .f32) := by
  obtain ⟨-, -, e0, e1, -⟩ := block_indices3 t
  refine ext_rows_cols fun u k => ?_
  unfold iblk3
  show V c main_v53 (((cfg3.win 1).blk t).view.emb (ix2 u k)) = V c main_v53 (ix2 u k)
  refine congrArg _ (RowOps.eq_ix2_of_val _ u k ?_ ?_)
  · show win3_1.index t (0 : Fin 2) * 1 + 1 * u.val = u.val
    rw [e0]; omega
  · show win3_1.index t (1 : Fin 2) * 64 + 1 * k.val = k.val
    rw [e1]; omega

/-- What point `t` writes back is block `t` of the row-wise log-softmax of the whole biased logits: a row's value
    needs that row only, and the block holds its rows whole. -/
theorem region3_block (c : Dev nD) (t : Fin cfg3.N) :
    (dat3 (F := Ideal) V c).flushed 2 t
      = ((cfg3.win 2).blk t).view.read (Elt Ideal)
          (Spec.biasLogSoftmax (V c main_v52 : Vec Ideal S100000x64 .f32) (V c main_v53 : Vec Ideal S1x64 .f32)) := by
  show (cfg3.win 2).cut (grid3.coords t) ((dat3 V c).after 2 t) = _
  rw [after3_2]
  unfold out3_2
  rw [View.canon_unit_zero offsets_zero]
  simp only [View.ld_unit_zero (S := S4000x64) offsets_zero, View.ld_unit_zero (S := S1x64) offsets_zero]
  refine ext_rows_cols (n0 := 4000) (n1 := 64) fun p q => ?_
  have ht : t.val < 25 := lt_of_lt_of_eq t.isLt (show cfg3.N = 25 from N_3)
  obtain ⟨-, -, -, -, e0, e1⟩ := block_indices3 t
  have hr : ((cfg3.win 2).blk t).view.emb (ix2 p q) = ix2 (⟨t.val * 4000 + p.val, by omega⟩ : Fin 100000) q := by
    refine RowOps.eq_ix2_of_val _ _ q ?_ ?_
    · show win3_2.index t (0 : Fin 2) * 4000 + 1 * p.val = t.val * 4000 + p.val
      rw [e0]; omega
    · show win3_2.index t (1 : Fin 2) * 64 + 1 * q.val = q.val
      rw [e1]; omega
  show k3_pay1 (F := Ideal) (iblk3 V c 0 t) (iblk3 V c 1 t) (ix2 p q)
    = Spec.biasLogSoftmax (V c main_v52 : Vec Ideal S100000x64 .f32) (V c main_v53 : Vec Ideal S1x64 .f32)
        (((cfg3.win 2).blk t).view.emb (ix2 p q))
  rw [hr]
  refine (congrFun (biasLogSoftmax_payload _ _) (ix2 p q)).trans ?_
  rw [bias_whole3]
  exact biasLogSoftmax_at_row _ _ _ p _ (fun k => operand_rows3 V c t p k _ rfl) q

/-- An index of the result array is in point `t`'s block iff each coordinate is in the block's range on its axis. -/
theorem mem_block3 (t : Fin cfg3.N) (i : S100000x64.Idx) :
    i ∈ ((cfg3.win 2).blk t).view.set
      ↔ ∀ a : Fin 2, win3_2.index t a * S4000x64.size a ≤ (i a).val
          ∧ (i a).val < win3_2.index t a * S4000x64.size a + S4000x64.size a := by
  show i ∈ ((View.whole main_v54).slice (win3_2.rect t)).set ↔ _
  rw [View.set_slice_whole, Rect.mem_set_unit]
  exact Iff.rfl

/-- Row `r` of the result lies in the block of point `r / 4000`: the blocks tile the array. -/
theorem region3_cover (i : S100000x64.Idx) :
    ∃ t : Fin cfg3.N, (cfg3.win 2).flush t = true ∧ i ∈ ((cfg3.win 2).blk t).view.set := by
  have hN : cfg3.N = 25 := N_3
  have h0 : (i 0).val < 100000 := (i 0).isLt
  have h1 : (i 1).val < 64 := (i 1).isLt
  have hlt : (i 0).val / 4000 < cfg3.N := by rw [hN]; omega
  refine ⟨⟨(i 0).val / 4000, hlt⟩, flush3_2 _, ?_⟩
  obtain ⟨-, -, -, -, e0, e1⟩ := block_indices3 ⟨(i 0).val / 4000, hlt⟩
  rw [mem_block3]
  intro a
  match a with
  | ⟨0, _⟩ =>
    show win3_2.index ⟨(i 0).val / 4000, hlt⟩ (0 : Fin 2) * 4000 ≤ (i 0).val
      ∧ (i 0).val < win3_2.index ⟨(i 0).val / 4000, hlt⟩ (0 : Fin 2) * 4000 + 4000
    rw [e0]
    show (i 0).val / 4000 * 4000 ≤ (i 0).val ∧ (i 0).val < (i 0).val / 4000 * 4000 + 4000
    omega
  | ⟨1, _⟩ =>
    show win3_2.index ⟨(i 0).val / 4000, hlt⟩ (1 : Fin 2) * 64 ≤ (i 1).val
      ∧ (i 1).val < win3_2.index ⟨(i 0).val / 4000, hlt⟩ (1 : Fin 2) * 64 + 64
    rw [e1]
    omega

/-- Region 1: `max (agg + b₁) 0`. -/
theorem region1_array (c : Dev nD) :
    (dat1 (F := Ideal) V c).arrAt 2 cfg1.N
      = Spec.biasRelu (V c main_v36 : Vec Ideal S100000x128 .f32) (V c main_v37 : Vec Ideal S1x128 .f32) := by
  exact (dat1 (F := Ideal) V c).arrAt_eq_of_cover 2 _ (fun t _ => region1_block V c t) region1_cover

/-- Region 3: the row-wise log-softmax of `agg + b₂`. -/
theorem region3_array (c : Dev nD) :
    (dat3 (F := Ideal) V c).arrAt 2 cfg3.N
      = Spec.biasLogSoftmax (V c main_v52 : Vec Ideal S100000x64 .f32) (V c main_v53 : Vec Ideal S1x64 .f32) := by
  exact (dat3 (F := Ideal) V c).arrAt_eq_of_cover 2 _ (fun t _ => region3_block V c t) region3_cover

end Cert.KernelIdeal.Regions

end
-- ==== Proof.Glue.lean ====
/-
  The sparse half of a graph-convolution layer, as the host operations both programs spell, named once. From the two
  edge lists with the self-loops appended (`withLoops`), a node's in-degree is a scatter-add of ones along the
  destinations, an edge's coefficient the product of the inverse square roots of its two end-points' degrees
  (`edgeCoef`), and a layer's aggregation (`aggregate128`, `aggregate64`) gathers the source rows of a feature
  matrix, scales each by its edge's coefficient and scatter-adds them along the destinations. Negative indices are
  wrapped by the node count before a gather, as jnp indexing does (`wrapped`).
  Everything here is generic in the float family: nothing is evaluated, the terms are only given names, so that the
  kernel's host stretches and the reference's are recognised as the same functions of a feature matrix.
-/
import proofs.«143489_j45354854645958_1_alg».proof.ReferenceIdeal
import proofs.«143489_j45354854645958_1_alg».proof.Proof.Gen.ReferenceIdeal

noncomputable section

namespace Cert.Glue

open Cert.ReferenceIdeal Cert.ReferenceIdeal.Gen Idealize.ShloMosaic

variable {F : FTy → Type} [FloatOps F]

/-- An edge list with one self-loop per node appended. -/
def withLoops (e : Vec F S1600000 .i32) : Vec F S1700000 .i32 :=
  concatenate S1700000 0 [⟨S1600000, e⟩, ⟨S100000, iotaInDim S100000 32 0⟩] concatenates_S1600000_S100000_S1700000_d0

/-- An index vector as a column of one-element index tuples. -/
def asColumn (v : Vec F S1700000 .i32) : Vec F S1700000x1 .i32 :=
  broadcastInDim S1700000x1 ![0] bcast_S1700000_S1700000x1_0 v

/-- Negative indices wrapped by the node count, as a column of index tuples. -/
def wrapped (v : Vec F S1700000 .i32) : Vec F S1700000x1 .i32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- The inverse square root of every node's in-degree (self-loop counted). -/
def invSqrtDeg (dst : Vec F S1700000 .i32) : Vec F S100000 .f32 :=
  Host.rsqrt (Host.scatterAdd scatter_S100000_S1700000x1_S1700000_n_0_0_1
    (broadcastInDim S100000 ![] bcast_S_S100000 (constant S_ .f32 0x00000000#32)) (asColumn dst)
    (broadcastInDim S1700000 ![] bcast_S_S1700000 (constant S_ .f32 0x3F800000#32)))

/-- An edge's normalisation coefficient. -/
def edgeCoef (src dst : Vec F S1700000 .i32) : Vec F S1700000 .f32 :=
  mulf (Host.gather gather_S100000_S1700000x1_S1700000_n_0_n_n_0_1_1 (invSqrtDeg dst) (wrapped src))
    (Host.gather gather_S100000_S1700000x1_S1700000_n_0_n_n_0_1_1 (invSqrtDeg dst) (wrapped dst))

/-- One layer's aggregation of a 128-column feature matrix. -/
def aggregate128 (h : Vec F S100000x128 .f32) (src dst : Vec F S1700000 .i32) (coef : Vec F S1700000 .f32) : Vec F S100000x128 .f32 :=
  Host.scatterAdd scatter_S100000x128_S1700000x1_S1700000x128_1_0_0_1
    (broadcastInDim S100000x128 ![] bcast_S_S100000x128 (constant S_ .f32 0x00000000#32)) (asColumn dst)
    (mulf (Host.gather gather_S100000x128_S1700000x1_S1700000x128_1_0_n_n_0_1_1128 h (wrapped src))
      (broadcastInDim S1700000x128 ![0, 1] bcast_S1700000x1_S1700000x128_0_1 (broadcastInDim S1700000x1 ![0] bcast_S1700000_S1700000x1_0 coef)))

/-- One layer's aggregation of a 64-column feature matrix. -/
def aggregate64 (h : Vec F S100000x64 .f32) (src dst : Vec F S1700000 .i32) (coef : Vec F S1700000 .f32) : Vec F S100000x64 .f32 :=
  Host.scatterAdd scatter_S100000x64_S1700000x1_S1700000x64_1_0_0_1
    (broadcastInDim S100000x64 ![] bcast_S_S100000x64 (constant S_ .f32 0x00000000#32)) (asColumn dst)
    (mulf (Host.gather gather_S100000x64_S1700000x1_S1700000x64_1_0_n_n_0_1_164 h (wrapped src))
      (broadcastInDim S1700000x64 ![0, 1] bcast_S1700000x1_S1700000x64_0_1 (broadcastInDim S1700000x1 ![0] bcast_S1700000_S1700000x1_0 coef)))

end Cert.Glue

end
-- ==== Proof.Model.lean ====
/-
  The whole two-layer graph convolution as ONE function of the seven argument arrays, over the extended reals:
  with the edge lists extended by self-loops and the edges' coefficients computed once,
      h₁ = max (aggregate (x · W₁) + b₁) 0,      out = log-softmax along the rows of (aggregate (h₁ · W₂) + b₂).
  The dense stages are the row-wise functions of the specification, the sparse ones the host operations named beside them.
-/
import proofs.«143489_j45354854645958_1_alg».proof.Proof.Spec
import proofs.«143489_j45354854645958_1_alg».proof.Proof.Glue

noncomputable section

namespace Cert.Model

open Cert.ReferenceIdeal Idealize.ShloMosaic Idealize.ShloMosaic.ValueIdx

/-- A bias vector read as a matrix of one row. -/
def oneRow {N : ℕ} (b : FVec Ideal (⟨1, ![N]⟩ : Shape) .f32) : Spec.Mat 1 N := fun i => b (ix1 (Spec.col i))

/-- The first layer's activations. -/
def hidden (x : Vec Ideal S100000x512 .f32) (src dst : Vec Ideal S1600000 .i32) (w1 : Vec Ideal S512x128 .f32) (b1 : Vec Ideal S128 .f32) :
    Vec Ideal S100000x128 .f32 :=
  Spec.biasRelu (Glue.aggregate128 (Spec.mm x w1) (Glue.withLoops src) (Glue.withLoops dst)
    (Glue.edgeCoef (Glue.withLoops src) (Glue.withLoops dst))) (oneRow b1)

/-- The network's output. -/
def gcn (x : Vec Ideal S100000x512 .f32) (src dst : Vec Ideal S1600000 .i32) (w1 : Vec Ideal S512x128 .f32) (b1 : Vec Ideal S128 .f32)
    (w2 : Vec Ideal S128x64 .f32) (b2 : Vec Ideal S64 .f32) : Vec Ideal S100000x64 .f32 :=
  Spec.biasLogSoftmax (Glue.aggregate64 (Spec.mm (hidden x src dst w1 b1) w2) (Glue.withLoops src) (Glue.withLoops dst)
    (Glue.edgeCoef (Glue.withLoops src) (Glue.withLoops dst))) (oneRow b2)

end Cert.Model

end
-- ==== Proof.KernelChain.lean ====
/-
  The kernel program's result array as the model function of the seven arguments, read back through the run's
  boundaries. Between the launch and the return the buffer contents pass seven boundaries: a host stretch builds the
  edge lists with self-loops and the edges' coefficients; region 0 leaves `x · W₁`; a host stretch aggregates it and
  reshapes the bias; region 1 leaves the clamped activations; region 2 their product with `W₂`; a host stretch
  aggregates that and reshapes the second bias; region 3 leaves the row-wise log-softmax. Each boundary's contents at the
  buffers a later stage reads are named here, from the launch memory upward: a region's output array by its whole-array
  function, a host stretch's results by its operations' composed term, and a buffer nothing in between writes by what it
  held before.
-/
import proofs.«143489_j45354854645958_1_alg».proof.Proof.KernelIdealRun
import proofs.«143489_j45354854645958_1_alg».proof.Proof.RegionMM
import proofs.«143489_j45354854645958_1_alg».proof.Proof.RegionEpilogue
import proofs.«143489_j45354854645958_1_alg».proof.Proof.Model
import Idealize.ShloMosaic.Lib.StableHlo.Run
import Idealize.ShloMosaic.Lib.Pipeline.Value

set_option maxRecDepth 16384

noncomputable section

open Idealize.ShloMosaic Idealize.ShloMosaic.TcCoe Idealize.ShloMosaic.ValueIdx Idealize.SL.Sem

namespace Cert.KernelIdeal.Chain

open Cert.KernelIdeal Cert.KernelIdeal.Gen Cert.KernelIdeal.GenP Cert.KernelIdeal.Regions

variable (m : (ℓ : Loc nD τ sig) → Buf (Elt Ideal) ℓ) (ρ : Dev nD → PrngReg) (c : Dev nD)

/-- A host stretch leaves a buffer none of its operations writes as it found it. -/
macro "host_keeps " ops:ident : tactic =>
  `(tactic| exact StableHlo.after_of_forall_not_mem _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-! ## After the first host stretch (region 0's entry) -/

theorem W1_arg0 : W1 m ρ c (Proc.devRef .tc main_arg0) = m ((c : Thread nD τ).loc main_arg0) := by host_keeps hostOps0
theorem W1_arg3 : W1 m ρ c (Proc.devRef .tc main_arg3) = m ((c : Thread nD τ).loc main_arg3) := by host_keeps hostOps0
theorem W1_arg4 : W1 m ρ c (Proc.devRef .tc main_arg4) = m ((c : Thread nD τ).loc main_arg4) := by host_keeps hostOps0
theorem W1_arg5 : W1 m ρ c (Proc.devRef .tc main_arg5) = m ((c : Thread nD τ).loc main_arg5) := by host_keeps hostOps0
theorem W1_arg6 : W1 m ρ c (Proc.devRef .tc main_arg6) = m ((c : Thread nD τ).loc main_arg6) := by host_keeps hostOps0

/-- The source list with self-loops. -/
theorem W1_src : W1 m ρ c (Proc.devRef .tc main_v1) = Glue.withLoops (m ((c : Thread nD τ).loc main_arg1)) := by
  show StableHlo.after hostOps0 (W0 m ρ c) (Proc.devRef .tc main_v1) = _
  after_results
  rfl
/-- The destination list with self-loops. -/
theorem W1_dst : W1 m ρ c (Proc.devRef .tc main_v2) = Glue.withLoops (m ((c : Thread nD τ).loc main_arg2)) := by
  show StableHlo.after hostOps0 (W0 m ρ c) (Proc.devRef .tc main_v2) = _
  after_results
  rfl
set_option maxHeartbeats 2000000 in
/-- The edges' coefficients. -/
theorem W1_coef : W1 m ρ c (Proc.devRef .tc main_v22)
    = Glue.edgeCoef (Glue.withLoops (m ((c : Thread nD τ).loc main_arg1))) (Glue.withLoops (m ((c : Thread nD τ).loc main_arg2))) := by
  show StableHlo.after hostOps0 (W0 m ρ c) (Proc.devRef .tc main_v22) = _
  after_results_simp
  rfl

/-! ## Region 0's exit: the first feature product, everything else as before -/

theorem W2_prod : W2 m ρ c (Proc.devRef .tc main_v23)
    = Spec.mm (m ((c : Thread nD τ).loc main_arg0)) (m ((c : Thread nD τ).loc main_arg3)) := by
  refine (W2_arr m ρ c 2).trans ((region0_array (V1 m ρ) c).trans ?_)
  show Spec.mm (W1 m ρ c (Proc.devRef .tc main_arg0)) (W1 m ρ c (Proc.devRef .tc main_arg3)) = _
  rw [W1_arg0, W1_arg3]
theorem W2_src : W2 m ρ c (Proc.devRef .tc main_v1) = Glue.withLoops (m ((c : Thread nD τ).loc main_arg1)) :=
  (W2_of_ne m ρ c main_v1 (by decide)).trans (W1_src m ρ c)
theorem W2_dst : W2 m ρ c (Proc.devRef .tc main_v2) = Glue.withLoops (m ((c : Thread nD τ).loc main_arg2)) :=
  (W2_of_ne m ρ c main_v2 (by decide)).trans (W1_dst m ρ c)
theorem W2_coef : W2 m ρ c (Proc.devRef .tc main_v22)
    = Glue.edgeCoef (Glue.withLoops (m ((c : Thread nD τ).loc main_arg1))) (Glue.withLoops (m ((c : Thread nD τ).loc main_arg2))) :=
  (W2_of_ne m ρ c main_v22 (by decide)).trans (W1_coef m ρ c)
theorem W2_arg4 : W2 m ρ c (Proc.devRef .tc main_arg4) = m ((c : Thread nD τ).loc main_arg4) :=
  (W2_of_ne m ρ c main_arg4 (by decide)).trans (W1_arg4 m ρ c)
theorem W2_arg5 : W2 m ρ c (Proc.devRef .tc main_arg5) = m ((c : Thread nD τ).loc main_arg5) :=
  (W2_of_ne m ρ c main_arg5 (by decide)).trans (W1_arg5 m ρ c)
theorem W2_arg6 : W2 m ρ c (Proc.devRef .tc main_arg6) = m ((c : Thread nD τ).loc main_arg6) :=
  (W2_of_ne m ρ c main_arg6 (by decide)).trans (W1_arg6 m ρ c)

/-! ## After the second host stretch (region 1's entry): the first aggregation and the bias as one row -/

/-- A vector reshaped to a matrix of one row reads, at `(0, j)`, its entry `j`. -/
theorem reshape_oneRow {N : ℕ} (b : FVec Ideal (⟨1, ![N]⟩ : Shape) .f32) (h : (⟨1, ![N]⟩ : Shape).ShapeCasts ⟨2, ![1, N]⟩) :
    shapeCast (⟨2, ![1, N]⟩ : Shape) b h = Model.oneRow b := by
  funext i
  refine shapeCast_apply b h i (ix1 (Spec.col i)) ?_
  rw [Shape.rowMajor_val_one, Shape.rowMajor_val_two]
  have h0 : (i 0).val = 0 := Nat.lt_one_iff.mp (show (i 0).val < 1 from (i 0).isLt)
  show (i 1).val = (i 0).val * N + (i 1).val
  rw [h0, Nat.zero_mul, Nat.zero_add]

theorem W3_agg : W3 m ρ c (Proc.devRef .tc main_v36)
    = Glue.aggregate128 (Spec.mm (m ((c : Thread nD τ).loc main_arg0)) (m ((c : Thread nD τ).loc main_arg3)))
        (Glue.withLoops (m ((c : Thread nD τ).loc main_arg1))) (Glue.withLoops (m ((c : Thread nD τ).loc main_arg2)))
        (Glue.edgeCoef (Glue.withLoops (m ((c : Thread nD τ).loc main_arg1))) (Glue.withLoops (m ((c : Thread nD τ).loc main_arg2)))) := by
  have e : W3 m ρ c (Proc.devRef .tc main_v36)
      = Glue.aggregate128 (W2 m ρ c (Proc.devRef .tc main_v23)) (W2 m ρ c (Proc.devRef .tc main_v1))
          (W2 m ρ c (Proc.devRef .tc main_v2)) (W2 m ρ c (Proc.devRef .tc main_v22)) := by
    show StableHlo.after hostOps1 (W2 m ρ c) (Proc.devRef .tc main_v36) = _
    after_results_simp
    rfl
  rw [e, W2_prod, W2_src, W2_dst, W2_coef]
theorem W3_bias : W3 m ρ c (Proc.devRef .tc main_v37) = Model.oneRow (m ((c : Thread nD τ).loc main_arg4)) := by
  have e : W3 m ρ c (Proc.devRef .tc main_v37)
      = shapeCast S1x128 (W2 m ρ c (Proc.devRef .tc main_arg4)) shapeCasts_S128_S1x128 := by
    show StableHlo.after hostOps1 (W2 m ρ c) (Proc.devRef .tc main_v37) = _
    after_results_simp
    rfl
  rw [e, W2_arg4]
  exact reshape_oneRow _ _
theorem W3_src : W3 m ρ c (Proc.devRef .tc main_v1) = Glue.withLoops (m ((c : Thread nD τ).loc main_arg1)) :=
  (show W3 m ρ c (Proc.devRef .tc main_v1) = W2 m ρ c (Proc.devRef .tc main_v1) by host_keeps hostOps1).trans (W2_src m ρ c)
theorem W3_dst : W3 m ρ c (Proc.devRef .tc main_v2) = Glue.withLoops (m ((c : Thread nD τ).loc main_arg2)) :=
  (show W3 m ρ c (Proc.devRef .tc main_v2) = W2 m ρ c (Proc.devRef .tc main_v2) by host_keeps hostOps1).trans (W2_dst m ρ c)
theorem W3_coef : W3 m ρ c (Proc.devRef .tc main_v22)
    = Glue.edgeCoef (Glue.withLoops (m ((c : Thread nD τ).loc main_arg1))) (Glue.withLoops (m ((c : Thread nD τ).loc main_arg2))) :=
  (show W3 m ρ c (Proc.devRef .tc main_v22) = W2 m ρ c (Proc.devRef .tc main_v22) by host_keeps hostOps1).trans (W2_coef m ρ c)
theorem W3_arg5 : W3 m ρ c (Proc.devRef .tc main_arg5) = m ((c : Thread nD τ).loc main_arg5) :=
  (show W3 m ρ c (Proc.devRef .tc main_arg5) = W2 m ρ c (Proc.devRef .tc main_arg5) by host_keeps hostOps1).trans (W2_arg5 m ρ c)
theorem W3_arg6 : W3 m ρ c (Proc.devRef .tc main_arg6) = m ((c : Thread nD τ).loc main_arg6) :=
  (show W3 m ρ c (Proc.devRef .tc main_arg6) = W2 m ρ c (Proc.devRef .tc main_arg6) by host_keeps hostOps1).trans (W2_arg6 m ρ c)

/-! ## Region 1's exit: the first layer's activations -/

theorem W4_hidden : W4 m ρ c (Proc.devRef .tc main_v38)
    = Model.hidden (m ((c : Thread nD τ).loc main_arg0)) (m ((c : Thread nD τ).loc main_arg1)) (m ((c : Thread nD τ).loc main_arg2))
        (m ((c : Thread nD τ).loc main_arg3)) (m ((c : Thread nD τ).loc main_arg4)) := by
  refine (W4_arr m ρ c 2).trans ((region1_array (V3 m ρ) c).trans ?_)
  show Spec.biasRelu (W3 m ρ c (Proc.devRef .tc main_v36)) (W3 m ρ c (Proc.devRef .tc main_v37)) = _
  rw [W3_agg, W3_bias]
  rfl
theorem W4_src : W4 m ρ c (Proc.devRef .tc main_v1) = Glue.withLoops (m ((c : Thread nD τ).loc main_arg1)) :=
  (W4_of_ne m ρ c main_v1 (by decide)).trans (W3_src m ρ c)
theorem W4_dst : W4 m ρ c (Proc.devRef .tc main_v2) = Glue.withLoops (m ((c : Thread nD τ).loc main_arg2)) :=
  (W4_of_ne m ρ c main_v2 (by decide)).trans (W3_dst m ρ c)
theorem W4_coef : W4 m ρ c (Proc.devRef .tc main_v22)
    = Glue.edgeCoef (Glue.withLoops (m ((c : Thread nD τ).loc main_arg1))) (Glue.withLoops (m ((c : Thread nD τ).loc main_arg2))) :=
  (W4_of_ne m ρ c main_v22 (by decide)).trans (W3_coef m ρ c)
theorem W4_arg5 : W4 m ρ c (Proc.devRef .tc main_arg5) = m ((c : Thread nD τ).loc main_arg5) :=
  (W4_of_ne m ρ c main_arg5 (by decide)).trans (W3_arg5 m ρ c)
theorem W4_arg6 : W4 m ρ c (Proc.devRef .tc main_arg6) = m ((c : Thread nD τ).loc main_arg6) :=
  (W4_of_ne m ρ c main_arg6 (by decide)).trans (W3_arg6 m ρ c)

/-! ## Region 2's exit: the second feature product -/

theorem W5_prod : W5 m ρ c (Proc.devRef .tc main_v39)
    = Spec.mm (Model.hidden (m ((c : Thread nD τ).loc main_arg0)) (m ((c : Thread nD τ).loc main_arg1)) (m ((c : Thread nD τ).loc main_arg2))
        (m ((c : Thread nD τ).loc main_arg3)) (m ((c : Thread nD τ).loc main_arg4))) (m ((c : Thread nD τ).loc main_arg5)) := by
  refine (W5_arr m ρ c 2).trans ((region2_array (V4 m ρ) c).trans ?_)
  show Spec.mm (W4 m ρ c (Proc.devRef .tc main_v38)) (W4 m ρ c (Proc.devRef .tc main_arg5)) = _
  rw [W4_hidden, W4_arg5]
theorem W5_src : W5 m ρ c (Proc.devRef .tc main_v1) = Glue.withLoops (m ((c : Thread nD τ).loc main_arg1)) :=
  (W5_of_ne m ρ c main_v1 (by decide)).trans (W4_src m ρ c)
theorem W5_dst : W5 m ρ c (Proc.devRef .tc main_v2) = Glue.withLoops (m ((c : Thread nD τ).loc main_arg2)) :=
  (W5_of_ne m ρ c main_v2 (by decide)).trans (W4_dst m ρ c)
theorem W5_coef : W5 m ρ c (Proc.devRef .tc main_v22)
    = Glue.edgeCoef (Glue.withLoops (m ((c : Thread nD τ).loc main_arg1))) (Glue.withLoops (m ((c : Thread nD τ).loc main_arg2))) :=
  (W5_of_ne m ρ c main_v22 (by decide)).trans (W4_coef m ρ c)
theorem W5_arg6 : W5 m ρ c (Proc.devRef .tc main_arg6) = m ((c : Thread nD τ).loc main_arg6) :=
  (W5_of_ne m ρ c main_arg6 (by decide)).trans (W4_arg6 m ρ c)

/-! ## After the third host stretch (region 3's entry): the second aggregation and its bias as one row -/

theorem W6_agg : W6 m ρ c (Proc.devRef .tc main_v52)
    = Glue.aggregate64 (Spec.mm (Model.hidden (m ((c : Thread nD τ).loc main_arg0)) (m ((c : Thread nD τ).loc main_arg1)) (m ((c : Thread nD τ).loc main_arg2))
        (m ((c : Thread nD τ).loc main_arg3)) (m ((c : Thread nD τ).loc main_arg4))) (m ((c : Thread nD τ).loc main_arg5)))
        (Glue.withLoops (m ((c : Thread nD τ).loc main_arg1))) (Glue.withLoops (m ((c : Thread nD τ).loc main_arg2)))
        (Glue.edgeCoef (Glue.withLoops (m ((c : Thread nD τ).loc main_arg1))) (Glue.withLoops (m ((c : Thread nD τ).loc main_arg2)))) := by
  have e : W6 m ρ c (Proc.devRef .tc main_v52)
      = Glue.aggregate64 (W5 m ρ c (Proc.devRef .tc main_v39)) (W5 m ρ c (Proc.devRef .tc main_v1))
          (W5 m ρ c (Proc.devRef .tc main_v2)) (W5 m ρ c (Proc.devRef .tc main_v22)) := by
    show StableHlo.after hostOps3 (W5 m ρ c) (Proc.devRef .tc main_v52) = _
    after_results_simp
    rfl
  rw [e, W5_prod, W5_src, W5_dst, W5_coef]
theorem W6_bias : W6 m ρ c (Proc.devRef .tc main_v53) = Model.oneRow (m ((c : Thread nD τ).loc main_arg6)) := by
  have e : W6 m ρ c (Proc.devRef .tc main_v53)
      = shapeCast S1x64 (W5 m ρ c (Proc.devRef .tc main_arg6)) shapeCasts_S64_S1x64 := by
    show StableHlo.after hostOps3 (W5 m ρ c) (Proc.devRef .tc main_v53) = _
    after_results_simp
    rfl
  rw [e, W5_arg6]
  exact reshape_oneRow _ _

/-! ## Region 3's exit: the result -/

/-- The kernel program's result array is the model function of the seven arguments. -/
theorem result : W7 m ρ c (Proc.devRef .tc main_v54)
    = Model.gcn (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (W7_arr m ρ c 2).trans ((region3_array (V6 m ρ) c).trans ?_)
  show Spec.biasLogSoftmax (W6 m ρ c (Proc.devRef .tc main_v52)) (W6 m ρ c (Proc.devRef .tc main_v53)) = _
  rw [W6_agg, W6_bias]
  rfl

end Cert.KernelIdeal.Chain

end
-- ==== Proof.LibTypedRef.lean ====
/-
  Typed references to buffers: writing a value into a typed reference's buffer and reading it back through the same
  reference is the identity. (The two directions are transports along the reference's type equation; composed, they
  cancel whatever the buffer's declared type is.)
-/
import Idealize.ShloMosaic.Lib.StableHlo

noncomputable section

namespace Cert.TypedRef

open Idealize.ShloMosaic Idealize.ShloMosaic.StableHlo

variable {sig : RefSig} {T : BufTy} {Val : EltTy → Type}

/-- Contents written through a typed reference and read back through it are unchanged. -/
theorem ofBuf_toBuf (x : TRef sig T) (v : T.Contents Val) : x.ofBuf (x.toBuf v) = v := by
  obtain ⟨r, h, hd, hu⟩ := x
  subst h
  rfl

/-- Contents read through a typed reference and written back through it are unchanged. -/
theorem toBuf_ofBuf (x : TRef sig T) (v : x.ref.ty.Contents Val) : x.toBuf (x.ofBuf v) = v := by
  obtain ⟨r, h, hd, hu⟩ := x
  subst h
  rfl

end Cert.TypedRef

end
-- ==== Proof.RefStage.lean ====
/-
  The reference's result array as its last one-operation stage. The run leaves every buffer at the fold of the 116 host
  operations over the launch contents; the fold is taken here in five consecutive stretches — the first sparse stage up
  to the first aggregation; bias, clamp and the second feature product; the edge lists with self-loops, rebuilt; the
  second sparse stage; bias and the row-wise log-softmax — and after each stretch every buffer a later stretch reads
  is the stage function of the arguments that the stage definitions build, one operation at a time, while the argument
  buffers are as launched.
-/
import proofs.«143489_j45354854645958_1_alg».proof.Proof.ReferenceChunks
import proofs.«143489_j45354854645958_1_alg».proof.Proof.ReferenceRead
import Idealize.ShloMosaic.Lib.Pipeline.Frame
import proofs.«143489_j45354854645958_1_alg».proof.Proof.LibTypedRef

noncomputable section

namespace Cert.ReferenceIdeal.RefStage

open Cert.ReferenceIdeal Cert.ReferenceIdeal.Gen Cert.ReferenceIdeal.ValueP Idealize.ShloMosaic Idealize.ShloMosaic.TcCoe Idealize.SL.Sem
open Idealize.ShloMosaic.StableHlo

variable {F : FTy → Type} [FloatOps F]
variable (m : (ℓ : Loc nD τ sig) → Buf (Elt F) ℓ) (c : Dev nD)

/-- The operation list is its five stretches in a row. -/
theorem ops_stretches : (ops : List (HloOp τ sig (Elt F))) = opsA ++ (opsB ++ (opsC ++ (opsD ++ opsE))) := rfl

/-- The buffer contents after the first four stretches. -/
def VA : Valuation τ sig (Elt F) := after opsA (launchContents m c)
def VB : Valuation τ sig (Elt F) := after opsB (VA m c)
def VC : Valuation τ sig (Elt F) := after opsC (VB m c)
def VD : Valuation τ sig (Elt F) := after opsD (VC m c)

/-- The whole fold is the last stretch's over the fourth boundary. -/
theorem after_ops (b : DevRef τ sig) : after ops (launchContents m c) b = after opsE (VD m c) b := by
  rw [ops_stretches, StableHlo.after_append, StableHlo.after_append, StableHlo.after_append, StableHlo.after_append]
  rfl

/-! ## After the first stretch: the first aggregation -/

set_option maxHeartbeats 2000000 in
theorem VA_agg : VA m c (Proc.devRef .tc main_v36)
    = ReadP.val_main_v36 (F := F) (m ((c.tc : Thread nD τ).loc main_arg0)) (m ((c.tc : Thread nD τ).loc main_arg1)) (m ((c.tc : Thread nD τ).loc main_arg2)) (m ((c.tc : Thread nD τ).loc main_arg3)) := by
  show after opsA (launchContents m c) (Proc.devRef .tc main_v36) = _
  after_results_simp
  rfl
set_option maxHeartbeats 2000000 in
theorem VA_arg1 : VA m c (Proc.devRef .tc main_arg1) = (m ((c.tc : Thread nD τ).loc main_arg1)) := by
  show after opsA (launchContents m c) (Proc.devRef .tc main_arg1) = _
  after_results_simp <;> rfl
set_option maxHeartbeats 2000000 in
theorem VA_arg2 : VA m c (Proc.devRef .tc main_arg2) = (m ((c.tc : Thread nD τ).loc main_arg2)) := by
  show after opsA (launchContents m c) (Proc.devRef .tc main_arg2) = _
  after_results_simp <;> rfl
set_option maxHeartbeats 2000000 in
theorem VA_arg4 : VA m c (Proc.devRef .tc main_arg4) = (m ((c.tc : Thread nD τ).loc main_arg4)) := by
  show after opsA (launchContents m c) (Proc.devRef .tc main_arg4) = _
  after_results_simp <;> rfl
set_option maxHeartbeats 2000000 in
theorem VA_arg5 : VA m c (Proc.devRef .tc main_arg5) = (m ((c.tc : Thread nD τ).loc main_arg5)) := by
  show after opsA (launchContents m c) (Proc.devRef .tc main_arg5) = _
  after_results_simp <;> rfl
set_option maxHeartbeats 2000000 in
theorem VA_arg6 : VA m c (Proc.devRef .tc main_arg6) = (m ((c.tc : Thread nD τ).loc main_arg6)) := by
  show after opsA (launchContents m c) (Proc.devRef .tc main_arg6) = _
  after_results_simp <;> rfl

/-! ## After the second stretch: the second feature product -/

set_option maxHeartbeats 2000000 in
theorem VB_prod : VB m c (Proc.devRef .tc main_v41)
    = ReadP.val_main_v41 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show after opsB (VA m c) (Proc.devRef .tc main_v41) = _
  after_results_simp
  rw [VA_agg, VA_arg4, VA_arg5]
  simp only [Cert.TypedRef.ofBuf_toBuf]
  rfl
theorem VB_arg1 : VB m c (Proc.devRef .tc main_arg1) = (m ((c.tc : Thread nD τ).loc main_arg1)) := by
  show after opsB (VA m c) (Proc.devRef .tc main_arg1) = _
  after_results_simp
  exact VA_arg1 m c
theorem VB_arg2 : VB m c (Proc.devRef .tc main_arg2) = (m ((c.tc : Thread nD τ).loc main_arg2)) := by
  show after opsB (VA m c) (Proc.devRef .tc main_arg2) = _
  after_results_simp
  exact VA_arg2 m c
theorem VB_arg6 : VB m c (Proc.devRef .tc main_arg6) = (m ((c.tc : Thread nD τ).loc main_arg6)) := by
  show after opsB (VA m c) (Proc.devRef .tc main_arg6) = _
  after_results_simp
  exact VA_arg6 m c

/-! ## After the third stretch: the edge lists with self-loops, rebuilt -/

theorem VC_src : VC m c (Proc.devRef .tc main_v43) = ReadP.val_main_v43 (F := F) (m ((c.tc : Thread nD τ).loc main_arg1)) := by
  show after opsC (VB m c) (Proc.devRef .tc main_v43) = _
  after_results
  rw [VB_arg1]
  rfl
theorem VC_dst : VC m c (Proc.devRef .tc main_v44) = ReadP.val_main_v44 (F := F) (m ((c.tc : Thread nD τ).loc main_arg2)) := by
  show after opsC (VB m c) (Proc.devRef .tc main_v44) = _
  after_results
  rw [VB_arg2]
  rfl
theorem VC_prod : VC m c (Proc.devRef .tc main_v41)
    = ReadP.val_main_v41 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show after opsC (VB m c) (Proc.devRef .tc main_v41) = _
  after_results_simp
  exact VB_prod m c
theorem VC_arg6 : VC m c (Proc.devRef .tc main_arg6) = (m ((c.tc : Thread nD τ).loc main_arg6)) := by
  show after opsC (VB m c) (Proc.devRef .tc main_arg6) = _
  after_results_simp
  exact VB_arg6 m c

/-! ## After the fourth stretch: the second aggregation -/

set_option maxHeartbeats 2000000 in
theorem VD_agg : VD m c (Proc.devRef .tc main_v77)
    = ReadP.val_main_v77 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show after opsD (VC m c) (Proc.devRef .tc main_v77) = _
  after_results_simp
  rw [VC_prod, VC_src, VC_dst]
  rfl
set_option maxHeartbeats 2000000 in
theorem VD_arg6 : VD m c (Proc.devRef .tc main_arg6) = (m ((c.tc : Thread nD τ).loc main_arg6)) := by
  show after opsD (VC m c) (Proc.devRef .tc main_arg6) = _
  after_results_simp
  exact VC_arg6 m c

/-! ## After the last stretch: the result -/

set_option maxHeartbeats 2000000 in
set_option maxRecDepth 16384 in
/-- The reference's result array after the run: its last stage at the arguments' launch contents. -/
theorem result_stage : after ops (launchContents m c) (Proc.devRef .tc main_v81)
    = ReadP.val_main_v81 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [after_ops]
  after_results_simp
  rw [VD_agg, VD_arg6]
  simp only [Cert.TypedRef.ofBuf_toBuf]
  rfl

end Cert.ReferenceIdeal.RefStage

end
-- ==== Proof.RefValue.lean ====
/-
  The reference program's result is the model function of its arguments: its two `dot_general`s are the matrix product,
  its bias-add and `maximum` against zero the clamp, its outlined log-softmax the row-wise one of the specification
  (the extra `maximum` of the row maximum with `-∞` changes nothing: a fold of `max` from `-∞` is at least `-∞`),
  and the host operations between them are, term for term, the named sparse stages.
-/
import proofs.«143489_j45354854645958_1_alg».proof.Proof.ReferenceRead
import proofs.«143489_j45354854645958_1_alg».proof.Proof.LibRowOps
import proofs.«143489_j45354854645958_1_alg».proof.Proof.Model
import Idealize.ShloMosaic.PureOps.Ideal.Laws

noncomputable section

open scoped BigOperators

namespace Cert.ReferenceIdeal.RefValue

open Cert.ReferenceIdeal Cert.ReferenceIdeal.Gen Cert.ReferenceIdeal.ReadP Idealize.ShloMosaic Idealize.ShloMosaic.ValueIdx

/-! ### The two `dot_general`s are the matrix product -/

/-- The left operand of the first product is read at (row of the result, contraction position). -/
theorem lidx_first (i : S100000x128.Idx) (k : Fin 512) : lidx_main_v0 i k = ix2 (i 0) k :=
  funext fun a => Fin.ext (by match a with | ⟨0, _⟩ => rfl | ⟨1, _⟩ => rfl)

/-- The right operand of the first product is read at (contraction position, column of the result). -/
theorem ridx_first (i : S100000x128.Idx) (k : Fin 512) : ridx_main_v0 i k = ix2 k (i 1) :=
  funext fun a => Fin.ext (by match a with | ⟨0, _⟩ => rfl | ⟨1, _⟩ => rfl)

/-- `x · W₁`. -/
theorem features_eq_mm (x0 : Vec Ideal S100000x512 .f32) (x3 : Vec Ideal S512x128 .f32) :
    val_main_v0 (F := Ideal) x0 x3 = Spec.mm x0 x3 := by
  funext i
  rw [val_main_v0_apply]
  unfold Spec.mm
  refine Finset.sum_congr rfl fun k _ => ?_
  rw [lidx_first, ridx_first]
  rfl

/-- The same two readings for the second product. -/
theorem lidx_second (i : S100000x64.Idx) (k : Fin 128) : lidx_main_v41 i k = ix2 (i 0) k :=
  funext fun a => Fin.ext (by match a with | ⟨0, _⟩ => rfl | ⟨1, _⟩ => rfl)

theorem ridx_second (i : S100000x64.Idx) (k : Fin 128) : ridx_main_v41 i k = ix2 k (i 1) :=
  funext fun a => Fin.ext (by match a with | ⟨0, _⟩ => rfl | ⟨1, _⟩ => rfl)

/-- `h₁ · W₂`, whatever the hidden activations are. -/
theorem logits_eq_mm (x0 : Vec Ideal S100000x512 .f32) (x1 x2 : Vec Ideal S1600000 .i32) (x3 : Vec Ideal S512x128 .f32)
    (x4 : Vec Ideal S128 .f32) (x5 : Vec Ideal S128x64 .f32) :
    val_main_v41 (F := Ideal) x0 x1 x2 x3 x4 x5 = Spec.mm (val_main_v40 (F := Ideal) x0 x1 x2 x3 x4) x5 := by
  funext i
  rw [val_main_v41_apply]
  unfold Spec.mm
  refine Finset.sum_congr rfl fun k _ => ?_
  rw [lidx_second, ridx_second]
  rfl

/-! ### The sparse stages are the named ones, term for term -/

/-- The first layer's aggregation: the same host operations with the same records. -/
theorem agg_first {F : FTy → Type} [FloatOps F] (x0 : Vec F S100000x512 .f32) (x1 x2 : Vec F S1600000 .i32) (x3 : Vec F S512x128 .f32) :
    val_main_v36 (F := F) x0 x1 x2 x3
      = Glue.aggregate128 (val_main_v0 (F := F) x0 x3) (Glue.withLoops x1) (Glue.withLoops x2)
          (Glue.edgeCoef (Glue.withLoops x1) (Glue.withLoops x2)) := rfl

/-- The second layer's aggregation, its coefficients recomputed from the same edge lists. -/
theorem agg_second {F : FTy → Type} [FloatOps F] (x0 : Vec F S100000x512 .f32) (x1 x2 : Vec F S1600000 .i32) (x3 : Vec F S512x128 .f32)
    (x4 : Vec F S128 .f32) (x5 : Vec F S128x64 .f32) :
    val_main_v77 (F := F) x0 x1 x2 x3 x4 x5
      = Glue.aggregate64 (val_main_v41 (F := F) x0 x1 x2 x3 x4 x5) (Glue.withLoops x1) (Glue.withLoops x2)
          (Glue.edgeCoef (Glue.withLoops x1) (Glue.withLoops x2)) := rfl

/-! ### Bias and clamp -/

/-- The first bias, broadcast to a row and then along the rows, is read at the result's column. -/
theorem bias_first_idx (i : S100000x128.Idx) : idx_main_v37 (idx_main_v38 i) = @ix1 128 (i 1) :=
  funext fun a => Fin.ext (by match a with | ⟨0, _⟩ => rfl)

/-- `max (aggregate + b₁) 0`. -/
theorem hidden_eq_biasRelu (x0 : Vec Ideal S100000x512 .f32) (x1 x2 : Vec Ideal S1600000 .i32) (x3 : Vec Ideal S512x128 .f32)
    (x4 : Vec Ideal S128 .f32) :
    val_main_v40 (F := Ideal) x0 x1 x2 x3 x4
      = Spec.biasRelu (val_main_v36 (F := Ideal) x0 x1 x2 x3) (Model.oneRow x4) := by
  funext i
  rw [val_main_v40_apply, val_main_v39_apply, val_main_v38_apply, val_main_v37_apply, val_main_call0_v0_apply,
    val_main_call0_cst_apply, bias_first_idx]
  simp only [Ideal.maximumf_def, Ideal.addf_def, Ideal.ofBits_def]
  rfl

/-! ### The row-wise log-softmax -/

/-- The second bias, broadcast to a row and then along the rows, is read at the result's column. -/
theorem bias_second_idx (i : S100000x64.Idx) : idx_main_v78 (idx_main_v79 i) = @ix1 64 (i 1) :=
  funext fun a => Fin.ext (by match a with | ⟨0, _⟩ => rfl)

/-- The biased logits `aggregate + b₂`. -/
theorem logits_eq_biased (x0 : Vec Ideal S100000x512 .f32) (x1 x2 : Vec Ideal S1600000 .i32) (x3 : Vec Ideal S512x128 .f32)
    (x4 : Vec Ideal S128 .f32) (x5 : Vec Ideal S128x64 .f32) (x6 : Vec Ideal S64 .f32) :
    val_main_v80 (F := Ideal) x0 x1 x2 x3 x4 x5 x6
      = Spec.biased (val_main_v77 (F := Ideal) x0 x1 x2 x3 x4 x5) (Model.oneRow x6) := by
  funext i
  rw [val_main_v80_apply, val_main_v79_apply, val_main_v78_apply, bias_second_idx]
  simp only [Ideal.addf_def]
  rfl

/-- Over row `r`, the logits with column `k` put back into the reduced index are the entries `(r, k)`. -/
theorem along_row (h : S100000x64.Reduces [1] S100000) (z : Vec Ideal S100000x64 .f32) (r : Fin 100000) :
    z ∘ h.lift (ix1 r) = fun k : Fin 64 => z (ix2 r k) :=
  funext fun k => congrArg z (RowOps.lift_row h r k)

/-- The reduction by `maximum` along the columns, read at row `r`: the fold of `max` from `-∞` over that row's logits. -/
theorem rowMax_read (x0 : Vec Ideal S100000x512 .f32) (x1 x2 : Vec Ideal S1600000 .i32) (x3 : Vec Ideal S512x128 .f32)
    (x4 : Vec Ideal S128 .f32) (x5 : Vec Ideal S128x64 .f32) (x6 : Vec Ideal S64 .f32) (r : Fin 100000) :
    val_main_call1_v0 (F := Ideal) x0 x1 x2 x3 x4 x5 x6 (ix1 r)
      = Spec.rowMax (val_main_v80 (F := Ideal) x0 x1 x2 x3 x4 x5 x6) r := by
  unfold val_main_call1_v0
  generalize val_main_v80 (F := Ideal) x0 x1 x2 x3 x4 x5 x6 = z
  have h : S100000x64.Reduces [1] S100000 := by decide
  have fold_form := Host.reduce_eq_fold_single (FloatOps.maximumf (F := Ideal) (φ := .f32)) z (val_main_call1_cst (F := Ideal))
    reducesTo_S100000x64_S100000_d1 h h_S_ (ix1 r)
  rw [fold_form, along_row h z r]
  rfl

/-- A further `maximum` with `-∞` changes nothing: the fold already starts from `-∞`. -/
theorem rowMax_clamped (x0 : Vec Ideal S100000x512 .f32) (x1 x2 : Vec Ideal S1600000 .i32) (x3 : Vec Ideal S512x128 .f32)
    (x4 : Vec Ideal S128 .f32) (x5 : Vec Ideal S128x64 .f32) (x6 : Vec Ideal S64 .f32) (r : Fin 100000) :
    val_main_call1_v2 (F := Ideal) x0 x1 x2 x3 x4 x5 x6 (ix1 r)
      = Spec.rowMax (val_main_v80 (F := Ideal) x0 x1 x2 x3 x4 x5 x6) r := by
  rw [val_main_call1_v2_apply, val_main_call1_v1_apply, val_main_call1_cst_0_apply, rowMax_read]
  simp only [Ideal.maximumf_def, Ideal.ofBits_def]
  refine max_eq_right ?_
  unfold Spec.rowMax
  exact (Finset.le_fold_max _).mpr (Or.inl le_rfl)

/-- A vector of row values made a column and broadcast along the columns is read, at `(r, c)`, at row `r`. -/
theorem rowMax_splat_idx (r : Fin 100000) (c : Fin 64) : idx_main_call1_v3 (idx_main_call1_v4 (ix2 r c)) = ix1 r :=
  funext fun a => Fin.ext (by match a with | ⟨0, _⟩ => rfl)

/-- The logits shifted by their row's maximum. -/
theorem shifted_read (x0 : Vec Ideal S100000x512 .f32) (x1 x2 : Vec Ideal S1600000 .i32) (x3 : Vec Ideal S512x128 .f32)
    (x4 : Vec Ideal S128 .f32) (x5 : Vec Ideal S128x64 .f32) (x6 : Vec Ideal S64 .f32) (r : Fin 100000) (c : Fin 64) :
    val_main_call1_v5 (F := Ideal) x0 x1 x2 x3 x4 x5 x6 (ix2 r c)
      = Spec.shifted (val_main_v80 (F := Ideal) x0 x1 x2 x3 x4 x5 x6) (ix2 r c) := by
  rw [val_main_call1_v5_apply, val_main_call1_v4_apply, val_main_call1_v3_apply, rowMax_splat_idx, rowMax_clamped]
  simp only [Ideal.subf_def]
  rfl

/-- The summand index of the row sum is (row, summation position). -/
theorem rowSum_idx (r : Fin 100000) (k : Fin 64) : idx_main_call1_v7 (ix1 r) k = ix2 r k :=
  funext fun a => Fin.ext (by match a with | ⟨0, _⟩ => rfl | ⟨1, _⟩ => rfl)

/-- The sum from `0.0` of the exponentials along a row. -/
theorem rowSum_read (x0 : Vec Ideal S100000x512 .f32) (x1 x2 : Vec Ideal S1600000 .i32) (x3 : Vec Ideal S512x128 .f32)
    (x4 : Vec Ideal S128 .f32) (x5 : Vec Ideal S128x64 .f32) (x6 : Vec Ideal S64 .f32) (r : Fin 100000) :
    val_main_call1_v7 (F := Ideal) x0 x1 x2 x3 x4 x5 x6 (ix1 r)
      = ∑ k : Fin 64, Ideal.exp (Spec.shifted (val_main_v80 (F := Ideal) x0 x1 x2 x3 x4 x5 x6) (ix2 r k)) := by
  rw [val_main_call1_v7_apply, val_main_call1_cst_1_apply]
  simp only [Ideal.ofBits_def]
  rw [Ideal.ofBits_zero_f32, zero_add]
  refine Finset.sum_congr rfl fun k _ => ?_
  rw [val_main_call1_v6_apply, rowSum_idx, shifted_read]
  simp only [Ideal.hostUnary_exp_def]

/-- The logarithm of the row sum, made a column and broadcast along the columns, is read, at `(r, c)`, at row `r`. -/
theorem logSum_splat_idx (r : Fin 100000) (c : Fin 64) : idx_main_call1_v8 (idx_main_call1_v10 (ix2 r c)) = ix1 r :=
  funext fun a => Fin.ext (by match a with | ⟨0, _⟩ => rfl)

/-- The outlined log-softmax of the biased logits is the specification's. -/
theorem out_eq_biasLogSoftmax (x0 : Vec Ideal S100000x512 .f32) (x1 x2 : Vec Ideal S1600000 .i32) (x3 : Vec Ideal S512x128 .f32)
    (x4 : Vec Ideal S128 .f32) (x5 : Vec Ideal S128x64 .f32) (x6 : Vec Ideal S64 .f32) :
    val_main_v81 (F := Ideal) x0 x1 x2 x3 x4 x5 x6
      = Spec.biasLogSoftmax (val_main_v77 (F := Ideal) x0 x1 x2 x3 x4 x5) (Model.oneRow x6) := by
  funext i
  obtain ⟨r, c, rfl⟩ : ∃ (r : Fin 100000) (c : Fin 64), i = ix2 r c := ⟨i 0, i 1, eq_ix2 i⟩
  rw [val_main_v81_apply, val_main_call1_v10_apply, val_main_call1_v9_apply, val_main_call1_v8_apply, logSum_splat_idx,
    rowSum_read, shifted_read, logits_eq_biased]
  simp only [Ideal.subf_def, Ideal.hostUnary_log_def]
  rfl

/-- The reference's last stage, as a function of the seven arguments, is the model. -/
theorem ref_eq (x0 : Vec Ideal S100000x512 .f32) (x1 x2 : Vec Ideal S1600000 .i32) (x3 : Vec Ideal S512x128 .f32)
    (x4 : Vec Ideal S128 .f32) (x5 : Vec Ideal S128x64 .f32) (x6 : Vec Ideal S64 .f32) :
    val_main_v81 (F := Ideal) x0 x1 x2 x3 x4 x5 x6 = Model.gcn x0 x1 x2 x3 x4 x5 x6 := by
  rw [out_eq_biasLogSoftmax, agg_second, logits_eq_mm, hidden_eq_biasRelu, agg_first, features_eq_mm]
  rfl

end Cert.ReferenceIdeal.RefValue

end
-- ==== Proof.lean ====
/-
  The certificate of a two-layer graph convolution. Kernel and reference compute, over the extended reals, the same
  function of the seven arguments (`Model.gcn`): the sparse stages — self-loops, degrees, edge coefficients, gather,
  scale, scatter-add — are the same host operations in both programs, and each of the kernel's four row-blocked regions
  (two matrix products with operands rounded to bf16 on the way in, which changes nothing over the reals; bias and clamp;
  bias and row-wise log-softmax) leaves in its output array the whole-array function the reference applies there,
  because every one of them acts on each row by itself. No law of arithmetic beyond the order of a finite sum is used, so
  the finiteness of the inputs is never opened. The three frames are the generated ones; the idealization rewrote nothing.
-/
import proofs.«143489_j45354854645958_1_alg».proof.Defs
import proofs.«143489_j45354854645958_1_alg».proof.Proof.Gen.Kernel
import proofs.«143489_j45354854645958_1_alg».proof.Proof.Gen.Kernel.Skeleton
import proofs.«143489_j45354854645958_1_alg».proof.Proof.KernelLaunch
import proofs.«143489_j45354854645958_1_alg».proof.Proof.Gen.Kernel.Points
import proofs.«143489_j45354854645958_1_alg».proof.Proof.KernelFrame
import proofs.«143489_j45354854645958_1_alg».proof.Proof.Gen.KernelIdeal
import proofs.«143489_j45354854645958_1_alg».proof.Proof.Gen.KernelIdeal.Skeleton
import proofs.«143489_j45354854645958_1_alg».proof.Proof.KernelIdealLaunch
import proofs.«143489_j45354854645958_1_alg».proof.Proof.Gen.KernelIdeal.Points
import proofs.«143489_j45354854645958_1_alg».proof.Proof.KernelIdealFrame
import proofs.«143489_j45354854645958_1_alg».proof.Proof.KernelIdealRun
import proofs.«143489_j45354854645958_1_alg».proof.Proof.KernelChain
import proofs.«143489_j45354854645958_1_alg».proof.Proof.Gen.ReferenceIdeal
import proofs.«143489_j45354854645958_1_alg».proof.Proof.ReferenceRun
import proofs.«143489_j45354854645958_1_alg».proof.Proof.ReferenceRead
import proofs.«143489_j45354854645958_1_alg».proof.Proof.ReferenceChunks
import proofs.«143489_j45354854645958_1_alg».proof.Proof.RefStage
import proofs.«143489_j45354854645958_1_alg».proof.Proof.RefValue
import proofs.«143489_j45354854645958_1_alg».proof.Proof.Gen.Pre_finite_inputs
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.GenP.frame m ρ
/-- So does its idealization. -/
theorem frame_kernelIdeal : Cert.frame_KernelIdeal := fun m ρ _ => Cert.KernelIdeal.GenP.frame m ρ
/-- The reference is a straight line of host operations: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both idealized programs end with the model function of the arguments in their result array. -/
theorem algebraic : Cert.algebraic_KernelIdeal_ReferenceIdeal := by
  intro m ρ m' ρ' _ hagree
  refine ⟨fun c => Cert.Model.gcn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Chain.result m ρ c), (h c).2⟩)
      (Cert.KernelIdeal.GenP.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.RefStage.result_stage, Cert.ReferenceIdeal.RefValue.ref_eq,
      (hagree c).1, (hagree c).2.1, (hagree c).2.2.1, (hagree c).2.2.2.1, (hagree c).2.2.2.2.1,
      (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
